-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S6400000x2 : Shape := ⟨2, ![6400000, 2]⟩
abbrev S2x6400000 : Shape := ⟨2, ![2, 6400000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S6400000x2 : S_.BroadcastsInDim S6400000x2 (![] : Fin 0 → Fin S6400000x2.rank)
  reducesTo_S6400000x2_S_d0_1 : S6400000x2.ReducesTo [0, 1] S_
  bcast_S_S2x6400000 : S_.BroadcastsInDim S2x6400000 (![] : Fin 0 → Fin S2x6400000.rank)
  reducesTo_S2x6400000_S_d0_1 : S2x6400000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S100000x2 .f32) (main_arg1 : FVec F S6400000x2 .f32) (main_arg2 : IVec S2x6400000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S6400000x2 .f32 := Host.absf main_arg1
  let main_cst_0 : FVec F S_ .f32 := constant S_ .f32 0x7F800000#32
  let main_v5 : FVec F S6400000x2 .f32 := broadcastInDim S6400000x2 ![] bcast_S_S6400000x2 main_cst_0
  let main_v6 : IVec S6400000x2 1 := cmpf .olt main_v4 main_v5
  let main_c_1 : IVec S_ 1 := constantI S_ 1 1#1
  let main_v7 : IVec S_ 1 := (fun x v => Host.reduce IntOp.andi x v reducesTo_S6400000x2_S_d0_1 h_S_) main_v6 main_c_1
  let main_v8 : IVec S_ 1 := andi main_v3 main_v7
  let main_c_2 : IVec S_ 32 := constantI S_ 32 0#32
  let main_v9 : IVec S2x6400000 32 := broadcastInDim S2x6400000 ![] bcast_S_S2x6400000 main_c_2
  let main_v10 : IVec S2x6400000 1 := cmpi .sge main_arg2 main_v9
  let main_c_3 : IVec S_ 1 := constantI S_ 1 1#1
  let main_v11 : IVec S_ 1 := (fun x v => Host.reduce IntOp.andi x v reducesTo_S2x6400000_S_d0_1 h_S_) main_v10 main_c_3
  let main_v12 : IVec S_ 1 := andi main_v8 main_v11
  let main_c_4 : IVec S_ 32 := constantI S_ 32 100000#32
  let main_v13 : IVec S2x6400000 32 := broadcastInDim S2x6400000 ![] bcast_S_S2x6400000 main_c_4
  let main_v14 : IVec S2x6400000 1 := cmpi .slt main_arg2 main_v13
  let main_c_5 : IVec S_ 1 := constantI S_ 1 1#1
  let main_v15 : IVec S_ 1 := (fun x v => Host.reduce IntOp.andi x v reducesTo_S2x6400000_S_d0_1 h_S_) main_v14 main_c_5
  fn_part1 (F := F) main_v12 main_v15
-- ==== Kernel.lean ====
abbrev S100000x2 : Shape := ⟨2, ![100000, 2]⟩
abbrev S6400000x2 : Shape := ⟨2, ![6400000, 2]⟩
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S12800000 : Shape := ⟨1, ![12800000]⟩
abbrev S10000x1280 : Shape := ⟨2, ![10000, 1280]⟩
abbrev S400x1280 : Shape := ⟨2, ![400, 1280]⟩
abbrev S100000x1 : Shape := ⟨2, ![100000, 1]⟩
abbrev S100000 : Shape := ⟨1, ![100000]⟩

abbrev nBuf : Space → Nat
  | .hbm => 88
  | .vmem => 8
  | .smem => 0
  | _ => 0

abbrev bufTy : (tb : Table) → Fin (tcTables nBuf tb) → BufTy
  | .hbm, ⟨0, _⟩ => ⟨S100000x2, .f32⟩
  | .hbm, ⟨1, _⟩ => ⟨S6400000x2, .f32⟩
  | .hbm, ⟨2, _⟩ => ⟨S2x6400000, .i32⟩
  | .hbm, ⟨3, _⟩ => ⟨S1x6400000, .i32⟩
  | .hbm, ⟨4, _⟩ => ⟨S6400000, .i32⟩
  | .hbm, ⟨5, _⟩ => ⟨S1x6400000, .i32⟩
  | .hbm, ⟨6, _⟩ => ⟨S6400000, .i32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S1, .i32⟩
  | .hbm, ⟨16, _⟩ => ⟨S_, .i32⟩
  | .hbm, ⟨17, _⟩ => ⟨S6400000x1, .i32⟩
  | .hbm, ⟨18, _⟩ => ⟨S6400000x1, .i1⟩
  | .hbm, ⟨19, _⟩ => ⟨S1x1, .i32⟩
  | .hbm, ⟨20, _⟩ => ⟨S6400000x1, .i32⟩
  | .hbm, ⟨21, _⟩ => ⟨S6400000x1, .i1⟩
  | .hbm, ⟨22, _⟩ => ⟨S6400000x1, .i1⟩
  | .hbm, ⟨23, _⟩ => ⟨S_, .i1⟩
  | .hbm, ⟨24, _⟩ => ⟨S6400000, .i1⟩
  | .hbm, ⟨25, _⟩ => ⟨S6400000x2, .f32⟩
  | .hbm, ⟨26, _⟩ => ⟨S6400000x2, .i1⟩
  | .hbm, ⟨27, _⟩ => ⟨S_, .f32⟩
  | .hbm, ⟨28, _⟩ => ⟨S6400000x2, .f32⟩
  | .hbm, ⟨29, _⟩ => ⟨S6400000x2, .f32⟩
  | .hbm, ⟨30, _⟩ => ⟨S_, .i32⟩
  | .hbm, ⟨31, _⟩ => ⟨S6400000, .i32⟩
  | .hbm, ⟨32, _⟩ => ⟨S6400000, .i1⟩
  | .hbm, ⟨33, _⟩ => ⟨S_, .i32⟩
  | .hbm, ⟨34, _⟩ => ⟨S6400000, .i32⟩
  | .hbm, ⟨35, _⟩ => ⟨S6400000, .i32⟩
  | .hbm, ⟨36, _⟩ => ⟨S6400000, .i32⟩
  | .hbm, ⟨37, _⟩ => ⟨S6400000x1, .i32⟩
  | .hbm, ⟨38, _⟩ => ⟨S1, .i32⟩
  | .hbm, ⟨39, _⟩ => ⟨S_, .i32⟩
  | .hbm, ⟨40, _⟩ => ⟨S6400000x1, .i32⟩
  | .hbm, ⟨41, _⟩ => ⟨S6400000x1, .i1⟩
  | .hbm, ⟨42, _⟩ => ⟨S1x1, .i32⟩
  | .hbm, ⟨43, _⟩ => ⟨S6400000x1, .i32⟩
  | .hbm, ⟨44, _⟩ => ⟨S6400000x1, .i1⟩
  | .hbm, ⟨45, _⟩ => ⟨S6400000x1, .i1⟩
  | .hbm, ⟨46, _⟩ => ⟨S_, .i1⟩
  | .hbm, ⟨47, _⟩ => ⟨S6400000, .i1⟩
  | .hbm, ⟨48, _⟩ => ⟨S6400000x2, .f32⟩
  | .hbm, ⟨49, _⟩ => ⟨S6400000x2, .i1⟩
  | .hbm, ⟨50, _⟩ => ⟨S_, .f32⟩
  | .hbm, ⟨51, _⟩ => ⟨S6400000x2, .f32⟩
  | .hbm, ⟨52, _⟩ => ⟨S6400000x2, .f32⟩
  | .hbm, ⟨53, _⟩ => ⟨S6400000x2, .f32⟩
  | .hbm, ⟨54, _⟩ => ⟨S12800000, .f32⟩
  | .hbm, ⟨55, _⟩ => ⟨S12800000, .f32⟩
  | .hbm, ⟨56, _⟩ => ⟨S10000x1280, .f32⟩
  | .hbm, ⟨57, _⟩ => ⟨S10000x1280, .f32⟩
  | .hbm, ⟨58, _⟩ => ⟨S10000x1280, .f32⟩
  | .hbm, ⟨59, _⟩ => ⟨S10000x1280, .f32⟩
  | .hbm, ⟨60, _⟩ => ⟨S12800000, .f32⟩
  | .hbm, ⟨61, _⟩ => ⟨S12800000, .f32⟩
  | .hbm, ⟨62, _⟩ => ⟨S6400000x2, .f32⟩
  | .hbm, ⟨63, _⟩ => ⟨S6400000x2, .f32⟩
  | .hbm, ⟨64, _⟩ => ⟨S_, .f32⟩
  | .hbm, ⟨65, _⟩ => ⟨S100000x2, .f32⟩
  | .hbm, ⟨66, _⟩ => ⟨S6400000x1, .i32⟩
  | .hbm, ⟨67, _⟩ => ⟨S100000x2, .f32⟩
  | .hbm, ⟨68, _⟩ => ⟨S_, .f32⟩
  | .hbm, ⟨69, _⟩ => ⟨S100000x2, .f32⟩
  | .hbm, ⟨70, _⟩ => ⟨S6400000x1, .i32⟩
  | .hbm, ⟨71, _⟩ => ⟨S100000x2, .f32⟩
  | .hbm, ⟨72, _⟩ => ⟨S_, .f32⟩
  | .hbm, ⟨73, _⟩ => ⟨S100000x2, .f32⟩
  | .hbm, ⟨74, _⟩ => ⟨S100000x2, .i1⟩
  | .hbm, ⟨75, _⟩ => ⟨S_, .f32⟩
  | .hbm, ⟨76, _⟩ => ⟨S100000x2, .f32⟩
  | .hbm, ⟨77, _⟩ => ⟨S100000x2, .f32⟩
  | .hbm, ⟨78, _⟩ => ⟨S100000x2, .f32⟩
  | .hbm, ⟨79, _⟩ => ⟨S_, .f32⟩
  | .hbm, ⟨80, _⟩ => ⟨S_, .f32⟩
  | .hbm, ⟨81, _⟩ => ⟨S100000x2, .f32⟩
  | .hbm, ⟨82, _⟩ => ⟨S100000x2, .f32⟩
  | .hbm, ⟨83, _⟩ => ⟨S100000x1, .f32⟩
  | .hbm, ⟨84, _⟩ => ⟨S100000, .f32⟩
  | .hbm, ⟨85, _⟩ => ⟨S100000x1, .f32⟩
  | .hbm, ⟨86, _⟩ => ⟨S100000, .f32⟩
  | .hbm, ⟨87, _⟩ => ⟨S100000, .f32⟩
  | .local _ .vmem, ⟨0, _⟩ => ⟨S400x1280, .f32⟩
  | .local _ .vmem, ⟨1, _⟩ => ⟨S400x1280, .f32⟩
  | .local _ .vmem, ⟨2, _⟩ => ⟨S400x1280, .f32⟩
  | .local _ .vmem, ⟨3, _⟩ => ⟨S400x1280, .f32⟩
  | .local _ .vmem, ⟨4, _⟩ => ⟨S400x1280, .f32⟩
  | .local _ .vmem, ⟨5, _⟩ => ⟨S400x1280, .f32⟩
  | .local _ .vmem, ⟨6, _⟩ => ⟨S400x1280, .f32⟩
  | .local _ .vmem, ⟨7, _⟩ => ⟨S400x1280, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11_0 : Ref sig .tc := ⟨.hbm, 58, rfl⟩
abbrev main_v11_1 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_cst : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_0 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst_1 : Ref sig .tc := ⟨.hbm, 72, rfl⟩
abbrev main_v22 : Ref sig .tc := ⟨.hbm, 73, rfl⟩
abbrev main_v23 : Ref sig .tc := ⟨.hbm, 74, rfl⟩
abbrev main_cst_2 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_3 : Ref sig .tc := ⟨.hbm, 79, rfl⟩
abbrev main_call2_v0 : Ref sig .tc := ⟨.hbm, 80, rfl⟩
abbrev main_call2_v1 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S6400000x2_0 : S6400000.BroadcastsInDim S6400000x2 (![0] : Fin 1 → Fin S6400000x2.rank)
  bcast_S_S6400000x2 : S_.BroadcastsInDim S6400000x2 (![] : Fin 0 → Fin S6400000x2.rank)
  shapeCasts_S6400000x2_S12800000 : S6400000x2.ShapeCasts S12800000
  shapeCasts_S12800000_S10000x1280 : S12800000.ShapeCasts S10000x1280
  inb_S400x1280_S400x1280_0_0 : ∀ a, (![0, 0] : Fin 2 → Nat) a + S400x1280.size a ≤ S400x1280.size a
  h_S400x1280 : 0 < S400x1280.numel
  shapeCasts_S400x1280_S400x1280 : S400x1280.ShapeCasts S400x1280
  natLt_1_32 : 1 < 32
  shapeCasts_S10000x1280_S12800000 : S10000x1280.ShapeCasts S12800000
  shapeCasts_S12800000_S6400000x2 : S12800000.ShapeCasts S6400000x2
  bcast_S_S100000x2 : S_.BroadcastsInDim S100000x2 (![] : Fin 0 → Fin S100000x2.rank)
  slices_S100000x2_S100000x1_0_0 : S100000x2.Slices ![0, 0] S100000x1
  shapeCasts_S100000x1_S100000 : S100000x1.ShapeCasts S100000
  slices_S100000x2_S100000x1_0_1 : S100000x2.Slices ![0, 1] S100000x1
  gather_S100000x2_S6400000x1_S6400000x2_1_0_n_n_0_1_12_wf : GatherDims.WF S100000x2 S6400000x1 S6400000x2 [1] [0] [] [0] [] 1 ![1, 2]
  scatter_S100000x2_S6400000x1_S6400000x2_1_0_0_1_wf : ScatterDims.WF S100000x2 S6400000x1 S6400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1280.size a ≤ S10000x1280.size a
  hwx0_0 : ∀ i : grid0.Coords, EltTy.bits .f32 = 32 ∨ (Rect.block (s := S10000x1280) S400x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1280.size a ≤ S10000x1280.size a
  hwx0_1 : ∀ i : grid0.Coords, EltTy.bits .f32 = 32 ∨ (Rect.block (s := S10000x1280) S400x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1280.size a ≤ S10000x1280.size a
  hwx0_2 : ∀ i : grid0.Coords, EltTy.bits .f32 = 32 ∨ (Rect.block (s := S10000x1280) S400x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1280.size a ≤ S10000x1280.size a
  hwx0_3 : ∀ i : grid0.Coords, EltTy.bits .f32 = 32 ∨ (Rect.block (s := S10000x1280) S400x1280.size (cc0_transform_3 i) (hinb0_3 i)).WholeWords (EltTy.packing .f32)

variable [Facts₀]

def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf

abbrev win0_0 : Pipeline.Window sig grid0 :=
  Pipeline.Window.ofSpec (Memref.whole main_v9) S400x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S400x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11_0) S400x1280.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_1) S400x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x2 : Shape := ⟨2, ![100000, 2]⟩
abbrev S6400000x2 : Shape := ⟨2, ![6400000, 2]⟩
abbrev S2x6400000 : Shape := ⟨2, ![2, 6400000]⟩
abbrev S1x6400000 : Shape := ⟨2, ![1, 6400000]⟩
abbrev S6400000 : Shape := ⟨1, ![6400000]⟩
abbrev S6400000x1 : Shape := ⟨2, ![6400000, 1]⟩
abbrev S_ : Shape := ⟨0, ![]⟩
abbrev S100000x1 : Shape := ⟨2, ![100000, 1]⟩
abbrev S100000 : Shape := ⟨1, ![100000]⟩

abbrev nBuf : Space → Nat
  | .hbm => 122
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S6400000x2, .f32⟩
  | .hbm, ⟨2, _⟩ => ⟨S2x6400000, .i32⟩
  | .hbm, ⟨3, _⟩ => ⟨S1x6400000, .i32⟩
  | .hbm, ⟨4, _⟩ => ⟨S6400000, .i32⟩
  | .hbm, ⟨5, _⟩ => ⟨S1x6400000, .i32⟩
  | .hbm, ⟨6, _⟩ => ⟨S6400000, .i32⟩
  | .hbm, ⟨7, _⟩ => ⟨S6400000x1, .f32⟩
  | .hbm, ⟨8, _⟩ => ⟨S6400000, .f32⟩
  | .hbm, ⟨9, _⟩ => ⟨S_, .f32⟩
  | .hbm, ⟨10, _⟩ => ⟨S6400000, .f32⟩
  | .hbm, ⟨11, _⟩ => ⟨S6400000, .i1⟩
  | .hbm, ⟨12, _⟩ => ⟨S6400000x1, .f32⟩
  | .hbm, ⟨13, _⟩ => ⟨S6400000, .f32⟩
  | .hbm, ⟨14, _⟩ => ⟨S100000x1, .f32⟩
  | .hbm, ⟨15, _⟩ => ⟨S100000, .f32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000, .f32⟩
  | .hbm, ⟨25, _⟩ => ⟨S_, .i32⟩
  | .hbm, ⟨26, _⟩ => ⟨S6400000, .i32⟩
  | .hbm, ⟨27, _⟩ => ⟨S6400000, .i1⟩
  | .hbm, ⟨28, _⟩ => ⟨S_, .i32⟩
  | .hbm, ⟨29, _⟩ => ⟨S6400000, .i32⟩
  | .hbm, ⟨30, _⟩ => ⟨S6400000, .i32⟩
  | .hbm, ⟨31, _⟩ => ⟨S6400000, .i32⟩
  | .hbm, ⟨32, _⟩ => ⟨S6400000x1, .i32⟩
  | .hbm, ⟨33, _⟩ => ⟨S6400000, .f32⟩
  | .hbm, ⟨34, _⟩ => ⟨S6400000, .f32⟩
  | .hbm, ⟨35, _⟩ => ⟨S_, .f32⟩
  | .hbm, ⟨36, _⟩ => ⟨S_, .f32⟩
  | .hbm, ⟨37, _⟩ => ⟨S6400000, .f32⟩
  | .hbm, ⟨38, _⟩ => ⟨S6400000, .f32⟩
  | .hbm, ⟨39, _⟩ => ⟨S6400000, .f32⟩
  | .hbm, ⟨40, _⟩ => ⟨S_, .f32⟩
  | .hbm, ⟨41, _⟩ => ⟨S_, .f32⟩
  | .hbm, ⟨42, _⟩ => ⟨S6400000, .f32⟩
  | .hbm, ⟨43, _⟩ => ⟨S6400000, .f32⟩
  | .hbm, ⟨44, _⟩ => ⟨S_, .f32⟩
  | .hbm, ⟨45, _⟩ => ⟨S100000, .f32⟩
  | .hbm, ⟨46, _⟩ => ⟨S6400000x1, .i32⟩
  | .hbm, ⟨47, _⟩ => ⟨S100000, .f32⟩
  | .hbm, ⟨48, _⟩ => ⟨S6400000, .f32⟩
  | .hbm, ⟨49, _⟩ => ⟨S_, .f32⟩
  | .hbm, ⟨50, _⟩ => ⟨S100000, .f32⟩
  | .hbm, ⟨51, _⟩ => ⟨S6400000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .i1⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000, .f32⟩
  | .hbm, ⟨60, _⟩ => ⟨S_, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S6400000x1, .f32⟩
  | .hbm, ⟨65, _⟩ => ⟨S6400000, .f32⟩
  | .hbm, ⟨66, _⟩ => ⟨S_, .f32⟩
  | .hbm, ⟨67, _⟩ => ⟨S6400000, .f32⟩
  | .hbm, ⟨68, _⟩ => ⟨S6400000, .i1⟩
  | .hbm, ⟨69, _⟩ => ⟨S6400000x1, .f32⟩
  | .hbm, ⟨70, _⟩ => ⟨S6400000, .f32⟩
  | .hbm, ⟨71, _⟩ => ⟨S100000x1, .f32⟩
  | .hbm, ⟨72, _⟩ => ⟨S100000, .f32⟩
  | .hbm, ⟨73, _⟩ => ⟨S_, .i32⟩
  | .hbm, ⟨74, _⟩ => ⟨S6400000, .i32⟩
  | .hbm, ⟨75, _⟩ => ⟨S6400000, .i1⟩
  | .hbm, ⟨76, _⟩ => ⟨S_, .i32⟩
  | .hbm, ⟨77, _⟩ => ⟨S6400000, .i32⟩
  | .hbm, ⟨78, _⟩ => ⟨S6400000, .i32⟩
  | .hbm, ⟨79, _⟩ => ⟨S6400000, .i32⟩
  | .hbm, ⟨80, _⟩ => ⟨S6400000x1, .i32⟩
  | .hbm, ⟨81, _⟩ => ⟨S6400000, .f32⟩
  | .hbm, ⟨82, _⟩ => ⟨S_, .i32⟩
  | .hbm, ⟨83, _⟩ => ⟨S6400000, .i32⟩
  | .hbm, ⟨84, _⟩ => ⟨S6400000, .i1⟩
  | .hbm, ⟨85, _⟩ => ⟨S_, .i32⟩
  | .hbm, ⟨86, _⟩ => ⟨S6400000, .i32⟩
  | .hbm, ⟨87, _⟩ => ⟨S6400000, .i32⟩
  | .hbm, ⟨88, _⟩ => ⟨S6400000, .i32⟩
  | .hbm, ⟨89, _⟩ => ⟨S6400000x1, .i32⟩
  | .hbm, ⟨90, _⟩ => ⟨S6400000, .f32⟩
  | .hbm, ⟨91, _⟩ => ⟨S6400000, .f32⟩
  | .hbm, ⟨92, _⟩ => ⟨S_, .f32⟩
  | .hbm, ⟨93, _⟩ => ⟨S_, .f32⟩
  | .hbm, ⟨94, _⟩ => ⟨S6400000, .f32⟩
  | .hbm, ⟨95, _⟩ => ⟨S6400000, .f32⟩
  | .hbm, ⟨96, _⟩ => ⟨S6400000, .f32⟩
  | .hbm, ⟨97, _⟩ => ⟨S_, .f32⟩
  | .hbm, ⟨98, _⟩ => ⟨S_, .f32⟩
  | .hbm, ⟨99, _⟩ => ⟨S6400000, .f32⟩
  | .hbm, ⟨100, _⟩ => ⟨S6400000, .f32⟩
  | .hbm, ⟨101, _⟩ => ⟨S_, .f32⟩
  | .hbm, ⟨102, _⟩ => ⟨S100000, .f32⟩
  | .hbm, ⟨103, _⟩ => ⟨S6400000x1, .i32⟩
  | .hbm, ⟨104, _⟩ => ⟨S100000, .f32⟩
  | .hbm, ⟨105, _⟩ => ⟨S6400000, .f32⟩
  | .hbm, ⟨106, _⟩ => ⟨S_, .f32⟩
  | .hbm, ⟨107, _⟩ => ⟨S100000, .f32⟩
  | .hbm, ⟨108, _⟩ => ⟨S6400000x1, .i32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .i1⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000, .f32⟩
  | .hbm, ⟨117, _⟩ => ⟨S_, .f32⟩
  | .hbm, ⟨118, _⟩ => ⟨S_, .f32⟩
  | .hbm, ⟨119, _⟩ => ⟨S100000, .f32⟩
  | .hbm, ⟨120, _⟩ => ⟨S100000, .f32⟩
  | .hbm, ⟨121, _⟩ => ⟨S100000, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_13 : Ref sig .tc := ⟨.hbm, 82, rfl⟩
abbrev main_v58 : Ref sig .tc := ⟨.hbm, 83, rfl⟩
abbrev main_v59 : Ref sig .tc := ⟨.hbm, 84, rfl⟩
abbrev main_c_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_call3_v0 : Ref sig .tc := ⟨.hbm, 93, rfl⟩
abbrev main_call3_v1 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_call4_v0 : Ref sig .tc := ⟨.hbm, 98, rfl⟩
abbrev main_call4_v1 : Ref sig .tc := ⟨.hbm, 99, rfl⟩
abbrev main_v68 : Ref sig .tc := ⟨.hbm, 100, rfl⟩
abbrev main_cst_17 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_21 : Ref sig .tc := ⟨.hbm, 117, rfl⟩
abbrev main_call5_v0 : Ref sig .tc := ⟨.hbm, 118, rfl⟩
abbrev main_call5_v1 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  slices_S6400000x2_S6400000x1_0_0 : S6400000x2.Slices ![0, 0] S6400000x1
  shapeCasts_S6400000x1_S6400000 : S6400000x1.ShapeCasts S6400000
  bcast_S_S6400000 : S_.BroadcastsInDim S6400000 (![] : Fin 0 → Fin S6400000.rank)
  slices_S100000x2_S100000x1_0_0 : S100000x2.Slices ![0, 0] S100000x1
  shapeCasts_S100000x1_S100000 : S100000x1.ShapeCasts S100000
  bcast_S6400000_S6400000x1_0 : S6400000.BroadcastsInDim S6400000x1 (![0] : Fin 1 → Fin S6400000x1.rank)
  bcast_S_S100000 : S_.BroadcastsInDim S100000 (![] : Fin 0 → Fin S100000.rank)
  slices_S6400000x2_S6400000x1_0_1 : S6400000x2.Slices ![0, 1] S6400000x1
  slices_S100000x2_S100000x1_0_1 : S100000x2.Slices ![0, 1] S100000x1
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.Spec.lean ====
/-
  The function both programs compute, written once over the extended reals.

  The inputs are a node table `x : [100000, 2]`, an edge table `a : [6400000, 2]` and two rows of node numbers
  `ei : [2, 6400000]` (row 0 the source `s e` of edge `e`, row 1 its destination `t e`). For a channel `c` of the two,
  an edge whose entry `a e c` is not zero carries the value `(x (t e) c - x (s e) c) / a e c` and counts once; an edge whose
  entry is zero carries `0` and does not count. A node `b` collects the values and the counts of the edges whose source
  is `b`, and its mean is the collected value over the collected count where that count is positive, else `0`. The
  result at node `b` is the sum of the two channels' means.

  A node number is read as both programs read it when they index the table: a negative number counted from the end,
  then clamped into the table (`nodeOf`). The segment a value is collected into is the source number itself, read
  signed: a number that names no node collects nowhere.
-/
import Idealize.ShloMosaic.PureOps.Ideal
import Idealize.ShloMosaic.Lib.ValueIdx

open scoped BigOperators

noncomputable section

namespace Cert.EdgeMean

open Idealize.ShloMosaic Idealize.ShloMosaic.ValueIdx

/-- The word of `0.0`, read as an extended real (never evaluated: both programs carry the same word). -/
abbrev zeroW : EReal := Ideal.ofBits .f32 0x00000000#32
/-- The word of `1.0`, likewise. -/
abbrev oneW : EReal := Ideal.ofBits .f32 0x3F800000#32

/-- A node number counted from the end made absolute: `w + 100000` if `w < 0`, else `w`. -/
def wrapW (w : BitVec 32) : BitVec 32 := Scalar.select (IntOp.cmpi .slt w 0#32) (IntOp.addi w 100000#32) w

/-- The row of the node table a node number reads: made absolute, read signed, clamped into `[0, 99999]`. -/
def nodeOf (w : BitVec 32) : Fin 100000 := ⟨min (wrapW w).toInt.toNat (100000 - 1), by omega⟩

/-- What one edge carries in one channel, from the difference `d` of the two node entries and the edge entry `a`:
    `d / a` where `a ≠ 0` (the divisor guarded to `1` elsewhere, where the quotient is not used), else `0`. -/
def edgeVal (d a : EReal) : EReal :=
  Scalar.select (Ideal.cmp .one a zeroW) (Ideal.div d (Scalar.select (Ideal.cmp .one a zeroW) a oneW)) zeroW

/-- What one edge counts in one channel: `1` where `a ≠ 0`, else `0`. -/
def edgeCnt (a : EReal) : EReal := (((Ideal.cmp .one a zeroW).toNat : ℝ) : EReal)

/-- The mean at a node from the collected value `s` and the collected count `k`: `s / max k 1` where `k > 0`, else `0`. -/
def nodeMean (s k : EReal) : EReal :=
  Scalar.select (Ideal.cmp .ogt k zeroW) (Ideal.div s (max k oneW)) zeroW

/-- What node `b` collects of a per-edge quantity `u`: from zero, the sum of `u e` over the edges whose segment number,
    read signed, is `b`. -/
def segSum (seg : Fin 6400000 → BitVec 32) (u : Fin 6400000 → EReal) (b : Fin 100000) : EReal :=
  zeroW + ∑ e : Fin 6400000, if (seg e).toInt = (b.val : ℤ) then u e else 0

variable (x : (⟨2, ![100000, 2]⟩ : Shape).Idx → EReal) (a : (⟨2, ![6400000, 2]⟩ : Shape).Idx → EReal)
  (ei : (⟨2, ![2, 6400000]⟩ : Shape).Idx → BitVec 32)

/-- The source number of edge `e`. -/
def srcOf (e : Fin 6400000) : BitVec 32 := ei (ix2 (0 : Fin 2) e)
/-- The destination number of edge `e`. -/
def dstOf (e : Fin 6400000) : BitVec 32 := ei (ix2 (1 : Fin 2) e)

/-- The difference of the node table's entries at the two ends of edge `e`, in channel `c`. -/
def edgeDiff (e : Fin 6400000) (c : Fin 2) : EReal :=
  x (ix2 (nodeOf (dstOf ei e)) c) - x (ix2 (nodeOf (srcOf ei e)) c)

/-- Channel `c`'s mean at node `b`. -/
def chan (c : Fin 2) (b : Fin 100000) : EReal :=
  nodeMean (segSum (srcOf ei) (fun e => edgeVal (edgeDiff x ei e c) (a (ix2 e c))) b)
    (segSum (srcOf ei) (fun e => edgeCnt (a (ix2 e c))) b)

/-- THE RESULT: at node `b`, the two channels' means added. -/
def G : (⟨1, ![100000]⟩ : Shape).Idx → EReal := fun i => chan x a ei 0 (i 0) + chan x a ei 1 (i 0)

/-! ## Two readings of the same bit -/

/-- On the extended reals "unordered or not equal" and "ordered and not equal" are one test: there is no NaN. -/
theorem cmp_une_eq (p q : EReal) : Ideal.cmp .une p q = Ideal.cmp .one p q := rfl

/-- A one-bit word widened by zeros to 32 bits and read signed is the bit read unsigned. -/
theorem toInt_setWidth_bit (b : BitVec 1) : ((b.setWidth 32).toInt : ℤ) = (b.toNat : ℤ) := by
  rcases BitVec.eq_zero_or_eq_one b with h | h <;> subst h <;> decide

/-- So the count an edge contributes is the same whether the bit is widened and read signed or read unsigned. -/
theorem edgeCnt_eq_signed (p : EReal) :
    ((((Ideal.cmp .one p zeroW).setWidth 32).toInt : ℝ) : EReal) = edgeCnt p := by
  unfold edgeCnt
  rw [show (((Ideal.cmp .one p zeroW).setWidth 32).toInt : ℝ) = (((Ideal.cmp .one p zeroW).toNat : ℤ) : ℝ) from by
    rw [toInt_setWidth_bit]]
  norm_cast

end Cert.EdgeMean

end
-- ==== Proof.LibSegmentScatter.lean ====
/-
  An accumulating scatter along axis 0, read at one element of its result over the extended reals.

  Two shapes that a segment sum lowers to. ROWS: the operand is `[B, D]`, the scatter indices a column `[N, 1]`, the
  updates `[N, D]`; update row `n` is added into operand row `idx n`, column by column. ELEMENTS: the operand is `[B]`,
  the scatter indices `[N, 1]`, the updates `[N]`; update `n` is added into element `idx n`. The index is read signed and
  not clamped, and an update whose index falls outside `[0, B)` is dropped. So the result at row `b` is the operand there
  plus the sum of the updates whose index is `b`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.SegmentScatter

open Idealize.ShloMosaic Idealize.ShloMosaic.ValueIdx

/-- The dimension numbers of a row scatter: operand `[B, D]`, scatter indices `[N, 1]`, updates `[N, D]`. -/
abbrev rowDims (B D N : Nat)
    (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-! ### Rows: start, window and landing index of update `(n, d')` -/

section Rows
variable {B D N w : Nat} (wf : ScatterDims.WF ⟨2, ![B, D]⟩ ⟨2, ![N, 1]⟩ ⟨2, ![N, D]⟩ [1] [0] [0] 1)
  (idx : IVec ⟨2, ![N, 1]⟩ w)

/-- On axis 0 the window of update `(n, d')` starts at the signed value of scatter index `(n, 0)`. -/
theorem row_start0 (n : Fin N) (d' : Fin D) :
    (rowDims B D N wf).start (ix2 n d') idx 0 = (idx (ix2 n (0 : Fin 1))).toInt := by
  unfold ScatterDims.start
  rw [dif_pos (show (0 : Fin 2) ∈ (rowDims B D N wf).scatterDimsToOperandDims from List.mem_singleton.mpr rfl)]
  have hsi : (rowDims B D N wf).siIdx (ix2 n d') ⟨List.idxOf (0 : Fin 2) (rowDims B D N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- Axis 1 is not named by the scatter-dims-to-operand-dims map, so the window starts at `0` there. -/
theorem row_start1 (j : (⟨2, ![N, D]⟩ : Shape).Idx) :
    (rowDims B D N wf).start j idx 1 = 0 := by
  unfold ScatterDims.start
  rw [dif_neg (show (1 : Fin 2) ∉ ([0] : List (Fin 2)) by decide)]

/-- Axis 0 is an inserted window axis: the window coordinate there is `0`. -/
theorem row_window0 (j : (⟨2, ![N, D]⟩ : Shape).Idx) :
    (rowDims B D N wf).window j 0 = 0 := by
  unfold ScatterDims.window
  have h : (0 : Fin 2) ∉ (rowDims B D N wf).sKept := (show (0 : Fin 2) ∉ ([1] : List (Fin 2)) by decide)
  rw [dif_neg h]

/-- Axis 1 is the one kept axis, read by update window axis 1: the window coordinate of `(n, d')` is `d'`. -/
theorem row_window1 (n : Fin N) (d' : Fin D) :
    (rowDims B D N wf).window (ix2 n d') 1 = d'.val := by
  unfold ScatterDims.window
  have h : (1 : Fin 2) ∈ (rowDims B D N wf).sKept := (show (1 : Fin 2) ∈ ([1] : List (Fin 2)) by decide)
  rw [dif_pos h]
  rfl

/-- Update `(n, d')` lands at `(b, d)` exactly when its scatter index, read signed, is `b` and `d' = d`; the range
    conditions then hold because `b < B` and `d < D`. -/
theorem row_resultIdx?_eq_some_iff (n : Fin N) (d' : Fin D) (b : Fin B) (d : Fin D) :
    (rowDims B D N wf).resultIdx? (ix2 n d') idx = some (ix2 b d)
      ↔ (idx (ix2 n (0 : Fin 1))).toInt = (b.val : ℤ) ∧ d' = d := by
  unfold ScatterDims.resultIdx?
  constructor
  · intro h
    split at h
    · rename_i hc
      have hf := Option.some.inj h
      have h0 := congrArg (fun f => (f 0).val) hf
      have h1 := congrArg (fun f => (f 1).val) hf
      simp only [row_start0, row_start1, row_window0, row_window1] at h0 h1
      have hc0 := (hc 0).1
      rw [row_start0, row_window0] at hc0
      change ((idx (ix2 n (0 : Fin 1))).toInt + ((0 : ℕ) : ℤ)).toNat = b.val at h0
      change ((0 : ℤ) + (d'.val : ℤ)).toNat = d.val at h1
      refine ⟨by omega, Fin.ext (by omega)⟩
    · exact absurd h (by simp)
  · rintro ⟨ht, rfl⟩
    have hc : ∀ a, 0 ≤ (rowDims B D N wf).start (ix2 n d') idx a + (rowDims B D N wf).window (ix2 n d') a ∧
        (rowDims B D N wf).start (ix2 n d') idx a + (rowDims B D N wf).window (ix2 n d') a
          < (⟨2, ![B, D]⟩ : Shape).size a := by
      intro a
      match a with
      | ⟨0, _⟩ =>
        change 0 ≤ (rowDims B D N wf).start (ix2 n d') idx 0 + ((rowDims B D N wf).window (ix2 n d') 0 : ℕ) ∧
          (rowDims B D N wf).start (ix2 n d') idx 0 + ((rowDims B D N wf).window (ix2 n d') 0 : ℕ) < (B : ℤ)
        rw [row_start0, row_window0, ht]
        have := b.isLt
        omega
      | ⟨1, _⟩ =>
        change 0 ≤ (rowDims B D N wf).start (ix2 n d') idx 1 + ((rowDims B D N wf).window (ix2 n d') 1 : ℕ) ∧
          (rowDims B D N wf).start (ix2 n d') idx 1 + ((rowDims B D N wf).window (ix2 n d') 1 : ℕ) < (D : ℤ)
        rw [row_start1, row_window1]
        have := d'.isLt
        omega
    rw [dif_pos hc]
    congr 1
    funext a; refine Fin.ext ?_
    match a with
    | ⟨0, _⟩ =>
      change ((rowDims B D N wf).start (ix2 n d') idx 0 + ((rowDims B D N wf).window (ix2 n d') 0 : ℕ)).toNat = b.val
      rw [row_start0, row_window0, ht]; omega
    | ⟨1, _⟩ =>
      change ((rowDims B D N wf).start (ix2 n d') idx 1 + ((rowDims B D N wf).window (ix2 n d') 1 : ℕ)).toNat = d'.val
      rw [row_start1, row_window1]; omega

end Rows

/-- A row scatter-add read at `(b, d)`: the operand there plus column `d` of every update row whose index is `b`. -/
theorem rowScatterAdd_apply {B D N w : Nat}
    (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (d : Fin D) :
    Ideal.hostScatterAdd (rowDims B D N wf) x idx upd (ix2 b d)
      = x (ix2 b d) + ∑ n : Fin N, if (idx (ix2 n (0 : Fin 1))).toInt = (b.val : ℤ) then upd (ix2 n d) else 0 := by
  unfold Ideal.hostScatterAdd
  congr 1
  rw [Finset.sum_filter]
  refine (sum_idx2 _).trans ?_
  refine Finset.sum_congr rfl fun n _ => ?_
  simp only [row_resultIdx?_eq_some_iff]
  by_cases ht : (idx (ix2 n (0 : Fin 1))).toInt = (b.val : ℤ)
  · simp only [ht, true_and, if_true]
    rw [Finset.sum_ite_eq' Finset.univ d (fun d' => upd (ix2 n d'))]
    simp
  · simp only [ht, false_and, if_false]
    exact Finset.sum_const_zero

/-- The dimension numbers of an element scatter: operand `[B]`, scatter indices `[N, 1]`, updates `[N]`. -/
abbrev elemDims (B N : Nat)
    (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-! ### Elements: start, window and landing index of update `n` -/

section Elements
variable {B N w : Nat} (wf : ScatterDims.WF ⟨1, ![B]⟩ ⟨2, ![N, 1]⟩ ⟨1, ![N]⟩ [] [0] [0] 1)
  (idx : IVec ⟨2, ![N, 1]⟩ w)

/-- The window of update `n` starts at the signed value of scatter index `(n, 0)`. -/
theorem elem_start0 (n : Fin N) :
    (elemDims B N wf).start (ix1 n) idx 0 = (idx (ix2 n (0 : Fin 1))).toInt := by
  unfold ScatterDims.start
  rw [dif_pos (show (0 : Fin 1) ∈ (elemDims B N wf).scatterDimsToOperandDims from List.mem_singleton.mpr rfl)]
  have hsi : (elemDims B N wf).siIdx (ix1 n) ⟨List.idxOf (0 : Fin 1) (elemDims B N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The operand's one axis is an inserted window axis: the window coordinate is `0`. -/
theorem elem_window0 (j : (⟨1, ![N]⟩ : Shape).Idx) :
    (elemDims B N wf).window j 0 = 0 := by
  unfold ScatterDims.window
  have h : (0 : Fin 1) ∉ (elemDims B N wf).sKept := (show (0 : Fin 1) ∉ ([] : List (Fin 1)) from List.not_mem_nil)
  rw [dif_neg h]

/-- Update `n` lands at `b` exactly when its scatter index, read signed, is `b`. -/
theorem elem_resultIdx?_eq_some_iff (n : Fin N) (b : Fin B) :
    (elemDims B N wf).resultIdx? (ix1 n) idx = some (ix1 b)
      ↔ (idx (ix2 n (0 : Fin 1))).toInt = (b.val : ℤ) := by
  unfold ScatterDims.resultIdx?
  constructor
  · intro h
    split at h
    · rename_i hc
      have hf := Option.some.inj h
      have h0 := congrArg (fun f => (f 0).val) hf
      have hc0 := (hc 0).1
      rw [elem_start0, elem_window0] at hc0
      simp only [elem_start0, elem_window0] at h0
      change ((idx (ix2 n (0 : Fin 1))).toInt + ((0 : ℕ) : ℤ)).toNat = b.val at h0
      omega
    · exact absurd h (by simp)
  · intro ht
    have hc : ∀ a, 0 ≤ (elemDims B N wf).start (ix1 n) idx a + (elemDims B N wf).window (ix1 n) a ∧
        (elemDims B N wf).start (ix1 n) idx a + (elemDims B N wf).window (ix1 n) a
          < (⟨1, ![B]⟩ : Shape).size a := by
      intro a
      match a with
      | ⟨0, _⟩ =>
        change 0 ≤ (elemDims B N wf).start (ix1 n) idx 0 + ((elemDims B N wf).window (ix1 n) 0 : ℕ) ∧
          (elemDims B N wf).start (ix1 n) idx 0 + ((elemDims B N wf).window (ix1 n) 0 : ℕ) < (B : ℤ)
        rw [elem_start0, elem_window0, ht]
        have := b.isLt
        omega
    rw [dif_pos hc]
    congr 1
    funext a; refine Fin.ext ?_
    match a with
    | ⟨0, _⟩ =>
      change ((elemDims B N wf).start (ix1 n) idx 0 + ((elemDims B N wf).window (ix1 n) 0 : ℕ)).toNat = b.val
      rw [elem_start0, elem_window0, ht]; omega

end Elements

/-- An element scatter-add read at `b`: the operand there plus every update whose index is `b`. -/
theorem elemScatterAdd_apply {B N w : Nat}
    (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (b : Fin B) :
    Ideal.hostScatterAdd (elemDims B N wf) x idx upd (ix1 b)
      = x (ix1 b) + ∑ n : Fin N, if (idx (ix2 n (0 : Fin 1))).toInt = (b.val : ℤ) then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (elemDims B N wf).resultIdx? (ix1 n) idx = some (ix1 b) then upd (ix1 n) else 0) = _
  simp only [elem_resultIdx?_eq_some_iff]

end Idealize.ShloMosaic.SegmentScatter

end
-- ==== Proof.LibTakeElems.lean ====
/-
  The shape of `stablehlo.gather` that indexing a flat array by an integer vector lowers to, read at one result index.

  ELEMENTS OF A VECTOR (`x[idx]` of `x : [N]` at `n` positions, the start indices an `[n, 1]` column): result element
  `i` is the operand's element `r`, where `r` is the start index of position `i` read signed and clamped into
  `[0, N - 1]`. The operand's one axis is collapsed, so the result has no offset axis.

  The dimension numbers are spelt field by field as a printed program's record is, so that record is one of these by `rfl`.
-/
import Idealize.ShloMosaic.Lib.ValueIdx

namespace Idealize.ShloMosaic.TakeElems

open Idealize.ShloMosaic Idealize.ShloMosaic.ValueIdx

variable {α : Type}

/-- The dimension numbers of an element take: operand `[N]`, start indices `[n, 1]`, result `[n]`. -/
abbrev elemDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- An element take read at `i`: the operand at the clamped start index of position `i`. -/
theorem elemTake_apply {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (i : Fin n) :
    Host.gather (elemDims N n wf) x idx (ix1 i)
      = x (ix1 ⟨min (idx (ix2 i (0 : Fin 1))).toInt.toNat (N - 1), by omega⟩) := by
  unfold Host.gather
  congr 1
  funext a
  obtain rfl : a = 0 := Subsingleton.elim _ _
  refine Fin.ext ?_
  show (elemDims N n wf).start (ix1 i) idx 0 + (elemDims N n wf).batchCoord (ix1 i) 0
    + (elemDims N n wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemDims N n wf).startIndexMap from List.mem_singleton.mpr rfl)]
  have hsi : (elemDims N n wf).siIdx (ix1 i) ⟨List.idxOf (0 : Fin 1) (elemDims N n wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

end Idealize.ShloMosaic.TakeElems
-- ==== Proof.LibPairColumns.lean ====
/-
  A column of an `[n, m]` array, and a row of an `[m, n]` array, taken out as a vector of length `n`, read at an index.

  jnp's `x[:, c]` prints as a unit-width slice `[n, m] → [n, 1]` at offset `(0, c)` followed by a reshape `[n, 1] → [n]`;
  `x[r]` (or `x[r, :]`) as a slice `[m, n] → [1, n]` at offset `(r, 0)` followed by a reshape `[1, n] → [n]`. Element `b`
  of the first is `x (b, c)`, element `e` of the second is `x (r, e)`: the reshape keeps the row-major position, which for
  a single column or a single row is the position along the long axis.

  The offsets are a function `off` with the two facts about its values as hypotheses, so that a printed literal
  `![0, 1]` fits by `rfl`.
-/
import Idealize.ShloMosaic.Lib.ValueIdx
import Idealize.ShloMosaic.Lib.Pipeline.Value

namespace Idealize.ShloMosaic.PairColumns

open Idealize.ShloMosaic Idealize.ShloMosaic.ValueIdx

variable {α : Type}

/-- Column `c` of an `[n, m]` array as a vector, at `b`. -/
theorem col_apply {n m : Nat} (off : Fin 2 → Nat) (c : Fin m) (hoff0 : off 0 = 0) (hoff1 : off 1 = c.val)
    (x : (⟨2, ![n, m]⟩ : Shape).Idx → α) (hs : (⟨2, ![n, m]⟩ : Shape).Slices off ⟨2, ![n, 1]⟩)
    (hc : (⟨2, ![n, 1]⟩ : Shape).ShapeCasts ⟨1, ![n]⟩) (b : Fin n) :
    shapeCast ⟨1, ![n]⟩ (extractStridedSlice ⟨2, ![n, 1]⟩ off x hs) hc (ix1 b) = x (ix2 b c) := by
  refine (shapeCast_apply _ hc (ix1 b) (ix2 b (0 : Fin 1)) ?_).trans ?_
  · rw [Shape.rowMajor_val_two, Shape.rowMajor_val_one]
    show b.val * 1 + 0 = b.val
    omega
  · exact extractStridedSlice_apply off x hs (ix2 b (0 : Fin 1)) (ix2 b c) (fun a => match a with
      | ⟨0, _⟩ => by show b.val = off 0 + b.val; omega
      | ⟨1, _⟩ => by show c.val = off 1 + 0; omega)

/-- Row `r` of an `[m, n]` array as a vector, at `e`. -/
theorem row_apply {n m : Nat} (off : Fin 2 → Nat) (r : Fin m) (hoff0 : off 0 = r.val) (hoff1 : off 1 = 0)
    (x : (⟨2, ![m, n]⟩ : Shape).Idx → α) (hs : (⟨2, ![m, n]⟩ : Shape).Slices off ⟨2, ![1, n]⟩)
    (hc : (⟨2, ![1, n]⟩ : Shape).ShapeCasts ⟨1, ![n]⟩) (e : Fin n) :
    shapeCast ⟨1, ![n]⟩ (extractStridedSlice ⟨2, ![1, n]⟩ off x hs) hc (ix1 e) = x (ix2 r e) := by
  refine (shapeCast_apply _ hc (ix1 e) (ix2 (0 : Fin 1) e) ?_).trans ?_
  · rw [Shape.rowMajor_val_two, Shape.rowMajor_val_one]
    show 0 * n + e.val = e.val
    omega
  · exact extractStridedSlice_apply off x hs (ix2 (0 : Fin 1) e) (ix2 r e) (fun a => match a with
      | ⟨0, _⟩ => by show r.val = off 0 + 0; omega
      | ⟨1, _⟩ => by show e.val = off 1 + e.val; omega)

/-- A pointwise function of two arrays commutes with a reshape: a reshape only re-indexes. -/
theorem shapeCast_map2 {s t : Shape} {β γ : Type} (f : α → β → γ) (x : s.Idx → α) (y : s.Idx → β) (h : s.ShapeCasts t) :
    shapeCast t (fun i => f (x i) (y i)) h = fun j => f (shapeCast t x h j) (shapeCast t y h j) := rfl

/-- A pointwise function of one array commutes with a reshape. -/
theorem shapeCast_map {s t : Shape} {β : Type} (f : α → β) (x : s.Idx → α) (h : s.ShapeCasts t) :
    shapeCast t (fun i => f (x i)) h = fun j => f (shapeCast t x h j) := rfl

end Idealize.ShloMosaic.PairColumns
-- ==== Proof.RefValue.lean ====
/-
  The reference's result is the function `G` of Spec.lean.

  The reference treats the two channels alike: from a column `xc` of the node table, a column `ac` of the edge table and
  the two rows of node numbers it gathers `xc` at the destinations and at the sources (each number first made absolute,
  the gather clamping it), divides the difference by the guarded edge entry where that entry is not zero, adds the
  values and the counts into their source's segment, and divides where the count is positive. `refChan` is that chain
  of operations as one function of the four vectors; read at a node it is `nodeMean` of two `segSum`s (`refChan_apply`):
  the gather by the element-take lemma, each accumulating scatter by the element-scatter lemma. The two channels are
  `refChan` at the two columns, and the result is their sum.
-/
import proofs.«414495_j50560355008552_3_alg».proof.Proof.RefRead
import proofs.«414495_j50560355008552_3_alg».proof.Proof.Spec
import proofs.«414495_j50560355008552_3_alg».proof.Proof.LibSegmentScatter
import proofs.«414495_j50560355008552_3_alg».proof.Proof.LibTakeElems
import proofs.«414495_j50560355008552_3_alg».proof.Proof.LibPairColumns
import Idealize.ShloMosaic.Lib.ValueIdx
import Idealize.ShloMosaic.Lib.Pipeline.Value

open scoped BigOperators

noncomputable section

namespace Cert.ReferenceIdeal.RefValue

open Cert.ReferenceIdeal Cert.ReferenceIdeal.Gen Cert.ReferenceIdeal.ReadP Cert.EdgeMean
open Idealize.ShloMosaic Idealize.ShloMosaic.TcCoe Idealize.ShloMosaic.ValueIdx Idealize.SL.Sem

/-! ## One channel as the reference computes it -/

/-- A vector of node numbers made absolute: `v + 100000` where `v < 0`, else `v`. -/
def wrapVec (v : IVec S6400000 32) : IVec S6400000 32 :=
  select (cmpi .slt v (broadcastInDim S6400000 ![] bcast_S_S6400000 (constantI S_ 32 0#32)))
    (addi v (broadcastInDim S6400000 ![] bcast_S_S6400000 (constantI S_ 32 100000#32))) v

/-- The column `xc` gathered at the node numbers `v` (made absolute, laid as a column of start indices). -/
def takeVec (xc : FVec Ideal S100000 .f32) (v : IVec S6400000 32) : FVec Ideal S6400000 .f32 :=
  Host.gather gather_S100000_S6400000x1_S6400000_n_0_n_n_0_1_1 xc
    (broadcastInDim S6400000x1 ![0] bcast_S6400000_S6400000x1_0 (wrapVec v))

/-- The mask of the edge column: the entries that are not zero. -/
def maskVec (ac : FVec Ideal S6400000 .f32) : IVec S6400000 1 :=
  cmpf .une ac (broadcastInDim S6400000 ![] bcast_S_S6400000 (constant S_ .f32 0x00000000#32))

/-- The per-edge values of the channel. -/
def valsVec (xc : FVec Ideal S100000 .f32) (ac : FVec Ideal S6400000 .f32) (sv dv : IVec S6400000 32) :
    FVec Ideal S6400000 .f32 :=
  select (maskVec ac)
    (Host.divf (subf (takeVec xc dv) (takeVec xc sv))
      (select (maskVec ac) ac (broadcastInDim S6400000 ![] bcast_S_S6400000 (constant S_ .f32 0x3F800000#32))))
    (broadcastInDim S6400000 ![] bcast_S_S6400000 (constant S_ .f32 0x00000000#32))

/-- A per-edge vector added into its sources' segments, from zeros. -/
def segVec (sv : IVec S6400000 32) (u : FVec Ideal S6400000 .f32) : FVec Ideal S100000 .f32 :=
  Host.scatterAdd scatter_S100000_S6400000x1_S6400000_n_0_0_1
    (broadcastInDim S100000 ![] bcast_S_S100000 (constant S_ .f32 0x00000000#32))
    (broadcastInDim S6400000x1 ![0] bcast_S6400000_S6400000x1_0 sv) u

/-- The channel's mean at every node. -/
def refChan (xc : FVec Ideal S100000 .f32) (ac : FVec Ideal S6400000 .f32) (sv dv : IVec S6400000 32) :
    FVec Ideal S100000 .f32 :=
  select
    (cmpf .ogt (segVec sv (uitofp .f32 (maskVec ac)))
      (broadcastInDim S100000 ![] bcast_S_S100000 (constant S_ .f32 0x00000000#32)))
    (Host.divf (segVec sv (valsVec xc ac sv dv))
      (maximumf (segVec sv (uitofp .f32 (maskVec ac)))
        (broadcastInDim S100000 ![] bcast_S_S100000 (constant S_ .f32 0x3F800000#32))))
    (broadcastInDim S100000 ![] bcast_S_S100000 (constant S_ .f32 0x00000000#32))

/-! ## Read at an index -/

/-- A vector laid as a column reads, at row `e`, the vector at `e`. -/
theorem col_apply (v : IVec S6400000 32) (e : Fin 6400000) :
    broadcastInDim S6400000x1 ![0] bcast_S6400000_S6400000x1_0 v (ix2 e (0 : Fin 1)) = v (ix1 e) :=
  broadcastInDim_apply _ bcast_S6400000_S6400000x1_0 v _ (ix1 e) (fun a => match a with
    | ⟨0, _⟩ => by show e.val = if (6400000 : Nat) = 1 then 0 else e.val; rw [if_neg (by decide)])

/-- The gathered column at edge `e`: the column at the node the number names. -/
theorem takeVec_apply (xc : FVec Ideal S100000 .f32) (v : IVec S6400000 32) (e : Fin 6400000) :
    takeVec xc v (ix1 e) = xc (ix1 (nodeOf (v (ix1 e)))) := by
  unfold takeVec
  refine (TakeElems.elemTake_apply (N := 100000) (n := 6400000) (by norm_num)
    gather_S100000_S6400000x1_S6400000_n_0_n_n_0_1_1_wf xc _ e).trans ?_
  refine congrArg xc (congrArg ix1 (Fin.ext ?_))
  show min (broadcastInDim S6400000x1 ![0] bcast_S6400000_S6400000x1_0 (wrapVec v) (ix2 e (0 : Fin 1))).toInt.toNat (100000 - 1)
    = min (wrapW (v (ix1 e))).toInt.toNat (100000 - 1)
  rw [col_apply]
  rfl

/-- The per-edge value at edge `e`. -/
theorem valsVec_apply (xc : FVec Ideal S100000 .f32) (ac : FVec Ideal S6400000 .f32) (sv dv : IVec S6400000 32)
    (e : Fin 6400000) :
    valsVec xc ac sv dv (ix1 e)
      = edgeVal (xc (ix1 (nodeOf (dv (ix1 e)))) - xc (ix1 (nodeOf (sv (ix1 e))))) (ac (ix1 e)) := by
  show Scalar.select (Ideal.cmp .une (ac (ix1 e)) zeroW)
      (Ideal.div (takeVec xc dv (ix1 e) - takeVec xc sv (ix1 e))
        (Scalar.select (Ideal.cmp .une (ac (ix1 e)) zeroW) (ac (ix1 e)) oneW)) zeroW = _
  rw [takeVec_apply, takeVec_apply]
  rfl

/-- The per-edge count at edge `e`. -/
theorem cntVec_apply (ac : FVec Ideal S6400000 .f32) (e : Fin 6400000) :
    (uitofp .f32 (maskVec ac) : FVec Ideal S6400000 .f32) (ix1 e) = edgeCnt (ac (ix1 e)) := rfl

/-- The printed record of the accumulating scatter is the element scatter's. -/
theorem scatter_eq : scatter_S100000_S6400000x1_S6400000_n_0_0_1
    = SegmentScatter.elemDims 100000 6400000 scatter_S100000_S6400000x1_S6400000_n_0_0_1_wf := rfl

/-- The host's accumulating scatter on the extended reals is the exact one, whatever its dimension numbers. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- What node `b` collects of a per-edge vector. -/
theorem segVec_apply (sv : IVec S6400000 32) (u : FVec Ideal S6400000 .f32) (b : Fin 100000) :
    segVec sv u (ix1 b) = segSum (fun e => sv (ix1 e)) (fun e => u (ix1 e)) b := by
  unfold segVec
  rw [scatterAdd_ideal, scatter_eq, SegmentScatter.elemScatterAdd_apply]
  unfold segSum
  refine congrArg₂ (· + ·) rfl (Finset.sum_congr rfl fun e _ => ?_)
  rw [col_apply]

/-- The closing select, division and maximum of a channel, for ANY two collected vectors: at a node, `nodeMean` of the
    two entries. -/
theorem mean_apply (S C : FVec Ideal S100000 .f32) (b : Fin 100000) :
    (select
      (cmpf .ogt C (broadcastInDim S100000 ![] bcast_S_S100000 (constant S_ .f32 0x00000000#32)))
      (Host.divf S (maximumf C (broadcastInDim S100000 ![] bcast_S_S100000 (constant S_ .f32 0x3F800000#32))))
      (broadcastInDim S100000 ![] bcast_S_S100000 (constant S_ .f32 0x00000000#32)) : FVec Ideal S100000 .f32) (ix1 b)
      = nodeMean (S (ix1 b)) (C (ix1 b)) := rfl

/-- THE CHANNEL AT A NODE: the mean of what the node collects. -/
theorem refChan_apply (xc : FVec Ideal S100000 .f32) (ac : FVec Ideal S6400000 .f32) (sv dv : IVec S6400000 32)
    (b : Fin 100000) :
    refChan xc ac sv dv (ix1 b)
      = nodeMean
          (segSum (fun e => sv (ix1 e))
            (fun e => edgeVal (xc (ix1 (nodeOf (dv (ix1 e)))) - xc (ix1 (nodeOf (sv (ix1 e))))) (ac (ix1 e))) b)
          (segSum (fun e => sv (ix1 e)) (fun e => edgeCnt (ac (ix1 e))) b) := by
  have hv : (fun e : Fin 6400000 => valsVec xc ac sv dv (ix1 e))
      = fun e => edgeVal (xc (ix1 (nodeOf (dv (ix1 e)))) - xc (ix1 (nodeOf (sv (ix1 e))))) (ac (ix1 e)) :=
    funext fun e => valsVec_apply xc ac sv dv e
  have hc : (fun e : Fin 6400000 => (uitofp .f32 (maskVec ac) : FVec Ideal S6400000 .f32) (ix1 e))
      = fun e => edgeCnt (ac (ix1 e)) :=
    funext fun e => cntVec_apply ac e
  unfold refChan
  rw [mean_apply, segVec_apply, segVec_apply, hv, hc]

/-! ## The two channels of the program -/

variable (x0 : (⟨S100000x2, .f32⟩ : BufTy).Contents (Elt Ideal)) (x1 : (⟨S6400000x2, .f32⟩ : BufTy).Contents (Elt Ideal))
  (x2 : (⟨S2x6400000, .i32⟩ : BufTy).Contents (Elt Ideal))

/-- Channel 0's stage is `refChan` at column 0 of the two tables. -/
theorem v42_eq : val_main_v42 (F := Ideal) x0 x1 x2
    = refChan (val_main_v11 (F := Ideal) x0) (val_main_v5 (F := Ideal) x1) (val_main_v1 (F := Ideal) x2) (val_main_v3 (F := Ideal) x2) := rfl

/-- Channel 1's stage is `refChan` at column 1. -/
theorem v81_eq : val_main_v81 (F := Ideal) x0 x1 x2
    = refChan (val_main_v50 (F := Ideal) x0) (val_main_v44 (F := Ideal) x1) (val_main_v1 (F := Ideal) x2) (val_main_v3 (F := Ideal) x2) := rfl

/-! ## The columns and rows the channels are built from -/

/-- Column 0 of the node table. -/
theorem v11_apply (b : Fin 100000) : val_main_v11 (F := Ideal) x0 (ix1 b) = x0 (ix2 b (0 : Fin 2)) := by
  unfold val_main_v11 val_main_v10
  exact PairColumns.col_apply ![0, 0] (0 : Fin 2) rfl rfl x0 slices_S100000x2_S100000x1_0_0 shapeCasts_S100000x1_S100000 b
/-- Column 1 of the node table. -/
theorem v50_apply (b : Fin 100000) : val_main_v50 (F := Ideal) x0 (ix1 b) = x0 (ix2 b (1 : Fin 2)) := by
  unfold val_main_v50 val_main_v49
  exact PairColumns.col_apply ![0, 1] (1 : Fin 2) rfl rfl x0 slices_S100000x2_S100000x1_0_1 shapeCasts_S100000x1_S100000 b
/-- Column 0 of the edge table. -/
theorem v5_apply (e : Fin 6400000) : val_main_v5 (F := Ideal) x1 (ix1 e) = x1 (ix2 e (0 : Fin 2)) := by
  unfold val_main_v5 val_main_v4
  exact PairColumns.col_apply ![0, 0] (0 : Fin 2) rfl rfl x1 slices_S6400000x2_S6400000x1_0_0 shapeCasts_S6400000x1_S6400000 e
/-- Column 1 of the edge table. -/
theorem v44_apply (e : Fin 6400000) : val_main_v44 (F := Ideal) x1 (ix1 e) = x1 (ix2 e (1 : Fin 2)) := by
  unfold val_main_v44 val_main_v43
  exact PairColumns.col_apply ![0, 1] (1 : Fin 2) rfl rfl x1 slices_S6400000x2_S6400000x1_0_1 shapeCasts_S6400000x1_S6400000 e
/-- Row 0 of the node numbers: the sources. -/
theorem v1_apply (e : Fin 6400000) : val_main_v1 (F := Ideal) x2 (ix1 e) = x2 (ix2 (0 : Fin 2) e) := by
  unfold val_main_v1 val_main_v0
  exact PairColumns.row_apply ![0, 0] (0 : Fin 2) rfl rfl x2 slices_S2x6400000_S1x6400000_0_0 shapeCasts_S1x6400000_S6400000 e
/-- Row 1 of the node numbers: the destinations. -/
theorem v3_apply (e : Fin 6400000) : val_main_v3 (F := Ideal) x2 (ix1 e) = x2 (ix2 (1 : Fin 2) e) := by
  unfold val_main_v3 val_main_v2
  exact PairColumns.row_apply ![1, 0] (1 : Fin 2) rfl rfl x2 slices_S2x6400000_S1x6400000_1_0 shapeCasts_S1x6400000_S6400000 e

/-! ## The result -/

/-- Channel 0's stage at a node is the specification's channel 0. -/
theorem chan0_apply (b : Fin 100000) : val_main_v42 (F := Ideal) x0 x1 x2 (ix1 b) = chan x0 x1 x2 0 b := by
  rw [v42_eq, refChan_apply]
  unfold chan edgeDiff srcOf dstOf
  simp only [v11_apply, v5_apply, v1_apply, v3_apply]

/-- Channel 1's stage at a node is the specification's channel 1. -/
theorem chan1_apply (b : Fin 100000) : val_main_v81 (F := Ideal) x0 x1 x2 (ix1 b) = chan x0 x1 x2 1 b := by
  rw [v81_eq, refChan_apply]
  unfold chan edgeDiff srcOf dstOf
  simp only [v50_apply, v44_apply, v1_apply, v3_apply]

/-- THE REFERENCE'S RESULT is `G` of the three argument arrays. -/
theorem ref_eq_G : val_main_v82 (F := Ideal) x0 x1 x2 = G x0 x1 x2 := by
  funext i
  obtain ⟨b, rfl⟩ : ∃ b : Fin 100000, i = ix1 b := ⟨i 0, eq_ix1 i⟩
  rw [val_main_v82_apply, chan0_apply, chan1_apply]
  rfl

end Cert.ReferenceIdeal.RefValue

end
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.PreRange.lean ====
/-
  What the precondition says of the node numbers: every entry of the `[2, 6400000]` table, read signed, lies in
  `[0, 100000)`.

  The precondition is a conjunction of four `all`s; the last two are "every entry is `≥ 0`" and "every entry is
  `< 100000`" as signed comparisons against a splat constant. A conjunction of bits that is 1 has every bit 1, and an
  `all` that is 1 met a 1 at every index.
-/
import proofs.«414495_j50560355008552_3_alg».proof.Pre_finite_inputs
import proofs.«414495_j50560355008552_3_alg».proof.Proof.LibIndexRange
import Idealize.ShloMosaic.Lib.ReduceAll
import Idealize.ShloMosaic.Lib.Affine
import Idealize.ShloMosaic.Lib.ValueIdx

namespace Cert.EdgeMean

open Idealize.ShloMosaic Cert.Pre_finite_inputs

instance : Subsingleton S_.Idx := ⟨fun a b => funext fun d => d.elim0⟩

/-- Under the precondition every node number, read signed, is in `[0, 100000)`. -/
theorem range_of_pre [Cert.Pre_finite_inputs.Facts] {F : FTy → Type} [FloatOps F]
    (x : FVec F S100000x2 .f32) (a : FVec F S6400000x2 .f32) (ei : IVec S2x6400000 32)
    (h : Cert.Pre_finite_inputs.fn (F := F) x a ei = fun _ => 1#1) (i : S2x6400000.Idx) :
    0 ≤ (ei i).toInt ∧ (ei i).toInt < 100000 := by
  have h0 := congrFun h ValueIdx.ix0
  dsimp only [Cert.Pre_finite_inputs.fn, Cert.Pre_finite_inputs.fn_part1] at h0
  obtain ⟨h12, h15⟩ := IntOp.andi_eq_one.1 h0
  obtain ⟨-, h11⟩ := IntOp.andi_eq_one.1 h12
  have hge := Host.reduce_andi_all _ _ _ _ _ h11 i
  have hlt := Host.reduce_andi_all _ _ _ _ _ h15 i
  exact IndexRange.toInt_mem_of_cmpi 100000 (by norm_num) hge hlt

end Cert.EdgeMean
-- ==== Proof.HostFns.lean ====
/-
  The host lines around the tiled region, as functions of arrays.

  BEFORE the region the program slices the two rows of node numbers out of their table, takes the rows of the node table
  at the destinations and at the sources (`takeK`: a number counted from the end made absolute, the row gathered, and
  a fill value where the number names no row), subtracts, and lays the `[6400000, 2]` difference and the edge table out
  as `[10000, 1280]` arrays by two reshapes. AFTER it, it lays the region's two outputs back as `[6400000, 2]`, adds their
  rows into the sources' segments of two `[100000, 2]` tables, divides where the count is positive, and adds the two
  columns (`tailK`). Stated at any reading `F` of the floats: nothing here depends on what a float is.
-/
import proofs.«414495_j50560355008552_3_alg».proof.Proof.Gen.KernelIdeal
import Idealize.ShloMosaic.Lib.Pipeline.Value

noncomputable section

namespace Cert.KernelIdeal.Host

open Cert.KernelIdeal Cert.KernelIdeal.Gen
open Idealize.ShloMosaic Idealize.SL.Sem

variable {F : FTy → Type} [FloatOps F]

/-! ## Before the region -/

/-- Row `r` of the table of node numbers, as a vector. -/
def srcVec (ei : IVec S2x6400000 32) : IVec S6400000 32 :=
  shapeCast S6400000 (extractStridedSlice S1x6400000 ![0, 0] ei slices_S2x6400000_S1x6400000_0_0) shapeCasts_S1x6400000_S6400000
@[inherit_doc srcVec]
def dstVec (ei : IVec S2x6400000 32) : IVec S6400000 32 :=
  shapeCast S6400000 (extractStridedSlice S1x6400000 ![1, 0] ei slices_S2x6400000_S1x6400000_1_0) shapeCasts_S1x6400000_S6400000

/-- A vector of node numbers made absolute and laid as a column of start indices. -/
def idxCol (v : IVec S6400000 32) : IVec S6400000x1 32 :=
  broadcastInDim S6400000x1 ![0] bcast_S6400000_S6400000x1_0
    (select (cmpi .slt v (broadcastInDim S6400000 ![] bcast_S_S6400000 (constantI S_ 32 0#32)))
      (addi v (broadcastInDim S6400000 ![] bcast_S_S6400000 (constantI S_ 32 100000#32))) v)

/-- The two comparisons `0 ≤ index` and `index ≤ 99999` of every start index, and-ed: one bit per entry of the column. -/
def okBits (v : IVec S6400000 32) : IVec S6400000x1 1 :=
  andi (cmpi .sge (idxCol v) (broadcastInDim S6400000x1 ![] bcast_S_S6400000x1 (constantI S_ 32 0#32)))
    (cmpi .sle (idxCol v) (broadcastInDim S6400000x1 ![0, 1] bcast_S1x1_S6400000x1_0_1
      (broadcastInDim S1x1 ![1] bcast_S1_S1x1_1 (constantI S1 32 99999#32))))

/-- Which positions' start index names a row, as one bit per position: the conjunction of `okBits` along the unit axis. -/
def inRange (v : IVec S6400000 32) : IVec S6400000 1 :=
  Host.reduce IntOp.andi (okBits v) (constantI S_ 1 1#1) reducesTo_S6400000x1_S6400000_d1 h_S_

/-- The rows of the node table at the node numbers `v`: the gathered row where the number names one, the fill value
    elsewhere. -/
def takeK (x : FVec F S100000x2 .f32) (v : IVec S6400000 32) :
    FVec F S6400000x2 .f32 :=
  select (broadcastInDim S6400000x2 ![0] bcast_S6400000_S6400000x2_0 (inRange v))
    (Host.gather gather_S100000x2_S6400000x1_S6400000x2_1_0_n_n_0_1_12 x (idxCol v))
    (broadcastInDim S6400000x2 ![] bcast_S_S6400000x2 (constant (F := F) S_ .f32 0x7FC00000#32))

/-- The per-edge, per-channel difference of the node table's rows at the two ends. -/
def diffK (x : FVec F S100000x2 .f32) (ei : IVec S2x6400000 32) :
    FVec F S6400000x2 .f32 :=
  subf (takeK x (dstVec ei)) (takeK x (srcVec ei))

/-- An `[6400000, 2]` array laid out as `[10000, 1280]` (both reshapes keep the row-major order). -/
def asTiles (u : FVec F S6400000x2 .f32) : FVec F S10000x1280 .f32 :=
  shapeCast S10000x1280 (shapeCast S12800000 u shapeCasts_S6400000x2_S12800000) shapeCasts_S12800000_S10000x1280

/-- A `[10000, 1280]` array laid back as `[6400000, 2]`. -/
def asEdges (u : FVec F S10000x1280 .f32) : FVec F S6400000x2 .f32 :=
  shapeCast S6400000x2 (shapeCast S12800000 u shapeCasts_S10000x1280_S12800000) shapeCasts_S12800000_S6400000x2

/-- The two layouts undo each other. -/
theorem asEdges_asTiles (u : FVec F S6400000x2 .f32) : asEdges (asTiles u) = u := by
  unfold asEdges asTiles
  rw [shapeCast_shapeCast, shapeCast_shapeCast]

/-! ## After the region -/

/-- A per-edge `[6400000, 2]` array added, row by row, into the sources' rows of a `[100000, 2]` table of zeros. -/
def segRows (sv : IVec S6400000 32) (u : FVec F S6400000x2 .f32) :
    FVec F S100000x2 .f32 :=
  Host.scatterAdd scatter_S100000x2_S6400000x1_S6400000x2_1_0_0_1
    (broadcastInDim S100000x2 ![] bcast_S_S100000x2 (constant (F := F) S_ .f32 0x00000000#32))
    (broadcastInDim S6400000x1 ![0] bcast_S6400000_S6400000x1_0 sv) u

/-- The means table: collected values over collected counts where the count is positive, else zero. -/
def meansK (sv : IVec S6400000 32) (vals cnts : FVec F S6400000x2 .f32) :
    FVec F S100000x2 .f32 :=
  select
    (cmpf .ogt (segRows sv cnts) (broadcastInDim S100000x2 ![] bcast_S_S100000x2 (constant (F := F) S_ .f32 0x00000000#32)))
    (Host.divf (segRows sv vals)
      (maximumf (segRows sv cnts) (broadcastInDim S100000x2 ![] bcast_S_S100000x2 (constant (F := F) S_ .f32 0x3F800000#32))))
    (broadcastInDim S100000x2 ![] bcast_S_S100000x2 (constant (F := F) S_ .f32 0x00000000#32))

/-- The result: the means table's two columns added. -/
def tailK (sv : IVec S6400000 32) (vals cnts : FVec F S10000x1280 .f32) :
    FVec F S100000 .f32 :=
  addf
    (shapeCast S100000 (extractStridedSlice S100000x1 ![0, 0] (meansK sv (asEdges vals) (asEdges cnts)) slices_S100000x2_S100000x1_0_0)
      shapeCasts_S100000x1_S100000)
    (shapeCast S100000 (extractStridedSlice S100000x1 ![0, 1] (meansK sv (asEdges vals) (asEdges cnts)) slices_S100000x2_S100000x1_0_1)
      shapeCasts_S100000x1_S100000)

end Cert.KernelIdeal.Host

end
-- ==== Proof.KernelRegion.lean ====
/-
  What the one tiled region leaves in its two output arrays, as whole-array functions of its two input arrays.

  The region runs over 25 points; at point `t` every window's block is rows `400·t … 400·t + 399` of a `[10000, 1280]`
  array, all 1280 columns. The body is pointwise: from the blocks `d` (first input) and `a` (second input) it stores
  `edgeVal d a` into the first output's block and `edgeCnt a` into the second's. The 25 blocks tile the array, so after the
  run the first output is `edgeVal` of the two inputs index by index and the second is `edgeCnt` of the second input.
-/
import proofs.«414495_j50560355008552_3_alg».proof.Proof.Gen.KernelIdeal.Frame
import proofs.«414495_j50560355008552_3_alg».proof.Proof.Spec
import Idealize.ShloMosaic.Lib.Pipeline.Value

set_option maxRecDepth 16384

noncomputable section

namespace Cert.KernelIdeal.Region

open Cert.KernelIdeal Cert.KernelIdeal.Gen Cert.EdgeMean
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The first output as a function of the two input arrays: the per-edge value, index by index. -/
abbrev valsOf (a0 a1 : S10000x1280.Idx → Elt Ideal .f32) : S10000x1280.Idx → Elt Ideal .f32 :=
  fun i => edgeVal (a0 i) (a1 i)
/-- The second output as a function of the second input array: the per-edge count, index by index. -/
abbrev cntsOf (a1 : S10000x1280.Idx → Elt Ideal .f32) : S10000x1280.Idx → Elt Ideal .f32 :=
  fun i => edgeCnt (a1 i)

/-! ## The body's two stored values, index by index -/

/-- The value stored into the first output's block: `edgeVal` of the two loaded blocks (a cast to the same shape is
    the identity). -/
theorem pay3_eq (x0 x1 : Vec Ideal S400x1280 .f32) : k0_pay3 (F := Ideal) x0 x1 = fun y => edgeVal (x0 y) (x1 y) := by
  unfold k0_pay3 k0_pay2 k0_pay1
  simp only [shapeCast_self]
  rfl

/-- The value stored into the second output's block: the mask bit widened and converted, which is `edgeCnt`. -/
theorem pay4_eq (x1 : Vec Ideal S400x1280 .f32) : k0_pay4 (F := Ideal) x1 = fun y => edgeCnt (x1 y) := by
  unfold k0_pay4 k0_pay2 k0_pay1
  simp only [shapeCast_self]
  funext y
  exact edgeCnt_eq_signed (x1 y)

/-! ## The index maps over the grid -/

/-- All four windows take block `(t, 0)` at point `t`, and `t` ranges over `0 … 24`. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_3.index t (0 : Fin 2) = win0_2.index t (0 : Fin 2)
    ∧ win0_3.index t (1 : Fin 2) = win0_2.index t (1 : Fin 2) :=
  (by decide +kernel : ∀ t : Fin grid0.N, _)

/-- Every block row `q` of the 25 is some point's, for both outputs. -/
theorem idx_onto : ∀ q0 : Fin 25, ∃ t : Fin cfg0.N, win0_2.index t = ![q0.val, 0] ∧ win0_3.index t = ![q0.val, 0] :=
  (by decide +kernel : ∀ q0 : Fin 25, ∃ t : Fin grid0.N, win0_2.index t = ![q0.val, 0] ∧ win0_3.index t = ![q0.val, 0])

/-! ## What a point writes back

Stated first for ANY two arrays in the inputs' places: the arrays the region finds are long host computations, and
nothing here depends on what they hold. -/

/-- From blocks read off any arrays `A0`, `A1`, the body leaves in the first output's buffer block `t` of
    `valsOf A0 A1`: all windows take the same block, so the blocks' indices agree. -/
theorem flushed2_gen (A0 A1 : S10000x1280.Idx → Elt Ideal .f32) (t : Fin cfg0.N) :
    (cfg0.win 2).cut (grid0.coords t)
        (out0_2 (((cfg0.win 0).blk t).view.read (Elt Ideal) A0) (((cfg0.win 1).blk t).view.read (Elt Ideal) A1))
      = ((cfg0.win 2).blk t).view.read (Elt Ideal) (valsOf A0 A1) := by
  unfold out0_2
  rw [View.canon_unit_zero hz]
  simp only [View.ld_unit_zero (S := S400x1280) hz]
  rw [pay3_eq]
  obtain ⟨e0, e1, e2, e3, e4, e5⟩ := idx_facts t
  funext j
  show edgeVal (A0 (((cfg0.win 0).blk t).view.emb j)) (A1 (((cfg0.win 1).blk t).view.emb j))
    = edgeVal (A0 (((cfg0.win 2).blk t).view.emb j)) (A1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 400 + 1 * (j 0).val = win0_2.index t (0 : Fin 2) * 400 + 1 * (j 0).val; omega
    | ⟨1, _⟩ => show win0_0.index t (1 : Fin 2) * 1280 + 1 * (j 1).val = win0_2.index t (1 : Fin 2) * 1280 + 1 * (j 1).val; omega
  have h1 : ((cfg0.win 1).blk t).view.emb j = ((cfg0.win 2).blk t).view.emb j := by
    funext a; apply Fin.ext
    match a with
    | ⟨0, _⟩ => show win0_1.index t (0 : Fin 2) * 400 + 1 * (j 0).val = win0_2.index t (0 : Fin 2) * 400 + 1 * (j 0).val; omega
    | ⟨1, _⟩ => show win0_1.index t (1 : Fin 2) * 1280 + 1 * (j 1).val = win0_2.index t (1 : Fin 2) * 1280 + 1 * (j 1).val; omega
  rw [h0, h1]

/-- Likewise the second output's buffer holds block `t` of `cntsOf A1`. -/
theorem flushed3_gen (A0 A1 : S10000x1280.Idx → Elt Ideal .f32) (t : Fin cfg0.N) :
    (cfg0.win 3).cut (grid0.coords t)
        (out0_3 (((cfg0.win 0).blk t).view.read (Elt Ideal) A0) (((cfg0.win 1).blk t).view.read (Elt Ideal) A1))
      = ((cfg0.win 3).blk t).view.read (Elt Ideal) (cntsOf A1) := by
  unfold out0_3
  rw [View.canon_unit_zero hz]
  simp only [View.ld_unit_zero (S := S400x1280) hz]
  rw [pay4_eq]
  obtain ⟨e0, e1, e2, e3, e4, e5⟩ := idx_facts t
  funext j
  show edgeCnt (A1 (((cfg0.win 1).blk t).view.emb j)) = edgeCnt (A1 (((cfg0.win 3).blk t).view.emb j))
  have h1 : ((cfg0.win 1).blk t).view.emb j = ((cfg0.win 3).blk t).view.emb j := by
    funext a; apply Fin.ext
    match a with
    | ⟨0, _⟩ => show win0_1.index t (0 : Fin 2) * 400 + 1 * (j 0).val = win0_3.index t (0 : Fin 2) * 400 + 1 * (j 0).val; omega
    | ⟨1, _⟩ => show win0_1.index t (1 : Fin 2) * 1280 + 1 * (j 1).val = win0_3.index t (1 : Fin 2) * 1280 + 1 * (j 1).val; omega
  rw [h1]

/-- Point `t` writes back, into the first output, block `t` of `valsOf` of the input arrays as the region finds them. -/
theorem flushed2_eq (c : Dev nD) (t : Fin cfg0.N) :
    (dats m 0 c).flushed 2 t = ((cfg0.win 2).blk t).view.read (Elt Ideal)
      (valsOf (V m c (Pipeline.arrRef spec0 0)) (V m c (Pipeline.arrRef spec0 1))) := by
  show (cfg0.win 2).cut (grid0.coords t) ((dats m 0 c).after 2 t) = _
  rw [after0_2]
  unfold iblk
  generalize V m c (Pipeline.arrRef spec0 0) = A0
  generalize V m c (Pipeline.arrRef spec0 1) = A1
  exact flushed2_gen A0 A1 t

/-- Point `t` writes back, into the second output, block `t` of `cntsOf` of the second input array. -/
theorem flushed3_eq (c : Dev nD) (t : Fin cfg0.N) :
    (dats m 0 c).flushed 3 t = ((cfg0.win 3).blk t).view.read (Elt Ideal) (cntsOf (V m c (Pipeline.arrRef spec0 1))) := by
  show (cfg0.win 3).cut (grid0.coords t) ((dats m 0 c).after 3 t) = _
  rw [after0_3]
  unfold iblk
  generalize V m c (Pipeline.arrRef spec0 0) = A0
  generalize V m c (Pipeline.arrRef spec0 1) = A1
  exact flushed3_gen A0 A1 t

/-! ## The blocks tile the arrays -/

/-- An index is in point `t`'s block iff each coordinate is in the block's range on its axis. -/
theorem mem_blk2 (t : Fin cfg0.N) (i : S10000x1280.Idx) :
    i ∈ ((cfg0.win 2).blk t).view.set ↔ ∀ a : Fin 2, win0_2.index t a * S400x1280.size a ≤ (i a).val ∧ (i a).val < win0_2.index t a * S400x1280.size a + S400x1280.size a := by
  show i ∈ ((View.whole main_v11_0).slice (win0_2.rect t)).set ↔ _
  rw [View.set_slice_whole, Rect.mem_set_unit]
  exact Iff.rfl
theorem mem_blk3 (t : Fin cfg0.N) (i : S10000x1280.Idx) :
    i ∈ ((cfg0.win 3).blk t).view.set ↔ ∀ a : Fin 2, win0_3.index t a * S400x1280.size a ≤ (i a).val ∧ (i a).val < win0_3.index t a * S400x1280.size a + S400x1280.size a := by
  show i ∈ ((View.whole main_v11_1).slice (win0_3.rect t)).set ↔ _
  rw [View.set_slice_whole, Rect.mem_set_unit]
  exact Iff.rfl

/-- Row `r` lies in the block of the point whose block row is `r / 400`. -/
theorem cover2 (i : S10000x1280.Idx) :
    ∃ t : Fin cfg0.N, (cfg0.win 2).flush t = true ∧ i ∈ ((cfg0.win 2).blk t).view.set := by
  have hi0 : (i 0).val < 10000 := (i 0).isLt
  have hi1 : (i 1).val < 1280 := (i 1).isLt
  obtain ⟨t, ht⟩ := idx_onto ⟨(i 0).val / 400, by omega⟩
  have q0 : win0_2.index t (0 : Fin 2) = (i 0).val / 400 := congrFun ht.1 0
  have q1 : win0_2.index t (1 : Fin 2) = 0 := congrFun ht.1 1
  refine ⟨t, flush0_2 t, ?_⟩
  rw [mem_blk2]
  intro a
  match a with
  | ⟨0, _⟩ => show win0_2.index t (0 : Fin 2) * 400 ≤ (i 0).val ∧ (i 0).val < win0_2.index t (0 : Fin 2) * 400 + 400; omega
  | ⟨1, _⟩ => show win0_2.index t (1 : Fin 2) * 1280 ≤ (i 1).val ∧ (i 1).val < win0_2.index t (1 : Fin 2) * 1280 + 1280; omega
theorem cover3 (i : S10000x1280.Idx) :
    ∃ t : Fin cfg0.N, (cfg0.win 3).flush t = true ∧ i ∈ ((cfg0.win 3).blk t).view.set := by
  have hi0 : (i 0).val < 10000 := (i 0).isLt
  have hi1 : (i 1).val < 1280 := (i 1).isLt
  obtain ⟨t, ht⟩ := idx_onto ⟨(i 0).val / 400, by omega⟩
  have q0 : win0_3.index t (0 : Fin 2) = (i 0).val / 400 := congrFun ht.2 0
  have q1 : win0_3.index t (1 : Fin 2) = 0 := congrFun ht.2 1
  refine ⟨t, flush0_3 t, ?_⟩
  rw [mem_blk3]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 1280 ≤ (i 1).val ∧ (i 1).val < win0_3.index t (1 : Fin 2) * 1280 + 1280; omega

/-! ## The two arrays after the run -/

/-- After the run the first output array is `valsOf` of the two input arrays as the region finds them. -/
theorem final2 (c : Dev nD) : (dats m 0 c).arrAt 2 cfg0.N
    = valsOf (V m c (Pipeline.arrRef spec0 0)) (V m c (Pipeline.arrRef spec0 1)) :=
  (dats m 0 c).arrAt_eq_of_cover 2 _ (fun t _ => flushed2_eq m c t) cover2

/-- After the run the second output array is `cntsOf` of the second input array as the region finds it. -/
theorem final3 (c : Dev nD) : (dats m 0 c).arrAt 3 cfg0.N = cntsOf (V m c (Pipeline.arrRef spec0 1)) :=
  (dats m 0 c).arrAt_eq_of_cover 3 _ (fun t _ => flushed3_eq m c t) cover3

end Cert.KernelIdeal.Region

end
-- ==== Proof.LibTakeRows.lean ====
/-
  Two shapes of `stablehlo.gather` that jnp's indexing by an integer vector lowers to, each read at one result index.

  * ROWS OF A TABLE (`jnp.take(table, idx, axis=0)` of a table `[N, D]` at `n` positions, the start indices an
    `[n, 1]` column): result element `(i, k)` is the table's element `(r, k)`, where `r` is the start index of position
    `i` read signed and clamped into `[0, N - 1]`.
  * ONE ELEMENT PER ROW (`jnp.take_along_axis(a, idx[:, None], axis=1)` of `a : [n, M]`, row `i` being a batch of its
    own, the start indices `[n, 1, 1]`): result element `(i, q)` is `a`'s element `(i, r)`, where `r` is the start
    index at `(i, q, 0)` read signed and clamped into `[0, M - 1]`.

  The dimension numbers are spelt field by field as a printed program's record is, so that record is one of these by `rfl`.
-/
import Idealize.ShloMosaic.Lib.ValueIdx

namespace Idealize.ShloMosaic.TakeRows

open Idealize.ShloMosaic Idealize.ShloMosaic.ValueIdx

variable {α : Type}

/-! ## Rows of a table -/

/-- The dimension numbers of a row take: operand `[N, D]`, start indices `[n, 1]`, result `[n, D]`. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- A row take read at `(i, k)`: column `k` of the row the clamped start index of position `i` names. -/
theorem rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (i : Fin n) (k : Fin D) :
    Host.gather (rowDims N D n wf) x idx (ix2 i k)
      = x (ix2 ⟨min (idx (ix2 i (0 : Fin 1))).toInt.toNat (N - 1), by omega⟩ k) := by
  unfold Host.gather
  congr 1
  funext a
  refine Fin.ext ?_
  match a with
  | ⟨0, _⟩ =>
    show (rowDims N D n wf).start (ix2 i k) idx 0 + (rowDims N D n wf).batchCoord (ix2 i k) 0
      + (rowDims N D n wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 i k) ⟨List.idxOf (0 : Fin 2) (rowDims N D n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N D n wf).start (ix2 i k) idx 1 + (rowDims N D n wf).batchCoord (ix2 i k) 1
      + (rowDims N D n wf).offCoord (ix2 i k) 1 = k.val
    rw [GatherDims.batchCoord_eq_zero _ _ _ List.not_mem_nil]
    unfold GatherDims.start
    rw [dif_neg (show ¬(1 : Fin 2) ∈ (rowDims N D n wf).startIndexMap from (by decide : (1 : Fin 2) ∉ ([0] : List (Fin 2))))]
    simp only [Nat.add_zero, Nat.zero_add]
    rfl

/-! ## One element per row -/

/-- The dimension numbers of `take_along_axis` along axis 1 with one index per row: operand `[n, M]`, start
    indices `[n, Q, 1]`, result `[n, Q]`; axis 0 is a batching axis of both. -/
abbrev alongDims (n M Q : Nat)
    (wf : GatherDims.WF ⟨2, ![n, M]⟩ ⟨3, ![n, Q, 1]⟩ ⟨2, ![n, Q]⟩ [] [1] [0] [1] [0] 2 ![1, 1]) :
    GatherDims ⟨2, ![n, M]⟩ ⟨3, ![n, Q, 1]⟩ ⟨2, ![n, Q]⟩ where
  offsetDims := []
  collapsedSliceDims := [1]
  operandBatchingDims := [0]
  startIndicesBatchingDims := [0]
  startIndexMap := [1]
  indexVectorDim := 2
  sliceSizes := ![1, 1]
  wf := wf

/-- That gather read at `(i, q)`: row `i` of the operand at the clamped start index at `(i, q, 0)`. -/
theorem alongTake_apply {n M Q w : Nat} (hM : 0 < M)
    (wf : GatherDims.WF ⟨2, ![n, M]⟩ ⟨3, ![n, Q, 1]⟩ ⟨2, ![n, Q]⟩ [] [1] [0] [1] [0] 2 ![1, 1])
    (x : (⟨2, ![n, M]⟩ : Shape).Idx → α) (idx : IVec ⟨3, ![n, Q, 1]⟩ w) (i : Fin n) (q : Fin Q) :
    Host.gather (alongDims n M Q wf) x idx (ix2 i q)
      = x (ix2 i ⟨min (idx (ix3 i q (0 : Fin 1))).toInt.toNat (M - 1), by omega⟩) := by
  unfold Host.gather
  congr 1
  funext a
  refine Fin.ext ?_
  match a with
  | ⟨0, _⟩ =>
    show (alongDims n M Q wf).start (ix2 i q) idx 0 + (alongDims n M Q wf).batchCoord (ix2 i q) 0
      + (alongDims n M Q wf).offCoord (ix2 i q) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show (alongDims n M Q wf).start (ix2 i q) idx 1 + (alongDims n M Q wf).batchCoord (ix2 i q) 1
      + (alongDims n M Q wf).offCoord (ix2 i q) 1 = _
    rw [GatherDims.batchCoord_eq_zero _ _ _ (show ¬(1 : Fin 2) ∈ (alongDims n M Q wf).operandBatchingDims from (by decide : (1 : Fin 2) ∉ ([0] : List (Fin 2)))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims n M Q wf).startIndexMap from List.mem_singleton.mpr rfl)]
    have hsi : (alongDims n M Q wf).siIdx (ix2 i q) ⟨List.idxOf (1 : Fin 2) (alongDims n M Q wf).startIndexMap,
        List.idxOf_lt_length_iff.2 (List.mem_singleton.mpr rfl)⟩ = ix3 i q (0 : Fin 1) := by
      funext b; refine Fin.ext ?_
      match b with
      | ⟨0, _⟩ => rfl
      | ⟨1, _⟩ => rfl
      | ⟨2, _⟩ => rfl
    rw [hsi]
    rfl

end Idealize.ShloMosaic.TakeRows
-- ==== Proof.KernelValue.lean ====
/-
  The kernel's host functions read at an index, and the kernel's result as the function `G` of Spec.lean.

  Where every node number lies in `[0, 100000)` the take's range test passes at every position, so the taken row is the
  gathered one: `x (nodeOf w) c` — the same entry the reference gathers. The per-edge arrays go through the tiled region
  and back by reshapes that undo each other, and the region is pointwise, so after it the value array is `edgeVal` of
  the difference and the edge entry, edge by edge and channel by channel, and the count array `edgeCnt` of the edge
  entry. The two accumulating scatters read at a node are `segSum`s over the edges whose source is the node, the
  means table is `nodeMean` of the two, and the result adds its two columns: that is `G`.
-/
import proofs.«414495_j50560355008552_3_alg».proof.Proof.HostFns
import proofs.«414495_j50560355008552_3_alg».proof.Proof.KernelRegion
import proofs.«414495_j50560355008552_3_alg».proof.Proof.LibTakeRows
import proofs.«414495_j50560355008552_3_alg».proof.Proof.LibSegmentScatter
import proofs.«414495_j50560355008552_3_alg».proof.Proof.LibIndexRange
import proofs.«414495_j50560355008552_3_alg».proof.Proof.LibPairColumns
import Idealize.ShloMosaic.Lib.ValueIdx

open scoped BigOperators

noncomputable section

namespace Cert.KernelIdeal.KValue

open Cert.KernelIdeal Cert.KernelIdeal.Gen Cert.KernelIdeal.Host Cert.KernelIdeal.Region Cert.EdgeMean
open Idealize.ShloMosaic Idealize.ShloMosaic.TcCoe Idealize.ShloMosaic.ValueIdx Idealize.SL.Sem

/-! ## Rows of the node numbers -/

theorem srcVec_apply (ei : IVec S2x6400000 32) (e : Fin 6400000) : srcVec ei (ix1 e) = srcOf ei e := by
  unfold srcVec
  exact PairColumns.row_apply ![0, 0] (0 : Fin 2) rfl rfl ei slices_S2x6400000_S1x6400000_0_0 shapeCasts_S1x6400000_S6400000 e

theorem dstVec_apply (ei : IVec S2x6400000 32) (e : Fin 6400000) : dstVec ei (ix1 e) = dstOf ei e := by
  unfold dstVec
  exact PairColumns.row_apply ![1, 0] (1 : Fin 2) rfl rfl ei slices_S2x6400000_S1x6400000_1_0 shapeCasts_S1x6400000_S6400000 e

/-! ## The take -/

/-- A vector laid as a column reads, at row `e`, the vector at `e`. -/
theorem col_apply {α : Type} (v : S6400000.Idx → α) (e : Fin 6400000) :
    broadcastInDim S6400000x1 ![0] bcast_S6400000_S6400000x1_0 v (ix2 e (0 : Fin 1)) = v (ix1 e) :=
  broadcastInDim_apply _ bcast_S6400000_S6400000x1_0 v _ (ix1 e) (fun a => match a with
    | ⟨0, _⟩ => by show e.val = if (6400000 : Nat) = 1 then 0 else e.val; rw [if_neg (by decide)])

/-- A vector laid along the rows of an `[6400000, 2]` array reads, at `(e, c)`, the vector at `e`. -/
theorem rows_apply {α : Type} (v : S6400000.Idx → α) (e : Fin 6400000) (c : Fin 2) :
    broadcastInDim S6400000x2 ![0] bcast_S6400000_S6400000x2_0 v (ix2 e c) = v (ix1 e) :=
  broadcastInDim_apply _ bcast_S6400000_S6400000x2_0 v _ (ix1 e) (fun a => match a with
    | ⟨0, _⟩ => by show e.val = if (6400000 : Nat) = 1 then 0 else e.val; rw [if_neg (by decide)])

/-- The start index of position `e`: the node number made absolute. -/
theorem idxCol_apply (v : IVec S6400000 32) (e : Fin 6400000) : idxCol v (ix2 e (0 : Fin 1)) = wrapW (v (ix1 e)) := by
  unfold idxCol
  rw [col_apply]
  rfl

/-- Where every node number is in range, the range test passes at every position. -/
theorem inRange_eq_one (v : IVec S6400000 32)
    (hv : ∀ e : Fin 6400000, 0 ≤ (v (ix1 e)).toInt ∧ (v (ix1 e)).toInt < 100000) (j : S6400000.Idx) :
    inRange v j = 1#1 := by
  unfold inRange
  refine IndexRange.reduce_andi_of_forall _ _ reducesTo_S6400000x1_S6400000_d1 h_S_ rfl (fun i => ?_) j
  obtain ⟨e, z, rfl⟩ : ∃ (e : Fin 6400000) (z : Fin 1), i = ix2 e z := ⟨i 0, i 1, eq_ix2 i⟩
  obtain rfl : z = 0 := Subsingleton.elim _ _
  show IntOp.andi (IntOp.cmpi .sge (idxCol v (ix2 e (0 : Fin 1))) 0#32)
    (IntOp.cmpi .sle (idxCol v (ix2 e (0 : Fin 1))) (BitVec.ofNat 32 99999)) = 1#1
  have h := hv e
  have hw : wrapW (v (ix1 e)) = v (ix1 e) := IndexRange.select_wrap_eq _ h.1
  rw [idxCol_apply, hw, IndexRange.sge_zero_eq_one h.1, IndexRange.sle_eq_one 99999 (by norm_num) (by omega)]
  rfl

/-- The printed record of the gather is the row take's. -/
theorem gather_eq : gather_S100000x2_S6400000x1_S6400000x2_1_0_n_n_0_1_12
    = TakeRows.rowDims 100000 2 6400000 gather_S100000x2_S6400000x1_S6400000x2_1_0_n_n_0_1_12_wf := rfl

/-- THE TAKE AT `(e, c)`, node numbers in range: entry `c` of the row the number names. -/
theorem takeK_apply (x : FVec Ideal S100000x2 .f32) (v : IVec S6400000 32)
    (hv : ∀ e : Fin 6400000, 0 ≤ (v (ix1 e)).toInt ∧ (v (ix1 e)).toInt < 100000) (e : Fin 6400000) (c : Fin 2) :
    takeK x v (ix2 e c) = x (ix2 (nodeOf (v (ix1 e))) c) := by
  unfold takeK
  rw [select_apply, rows_apply, inRange_eq_one v hv, select_one, gather_eq,
    TakeRows.rowTake_apply (N := 100000) (D := 2) (n := 6400000) (by norm_num)]
  refine congrArg x (congrArg (fun r => ix2 r c) (Fin.ext ?_))
  show min (idxCol v (ix2 e (0 : Fin 1))).toInt.toNat (100000 - 1) = min (wrapW (v (ix1 e))).toInt.toNat (100000 - 1)
  rw [idxCol_apply]

/-- The difference array at `(e, c)`, node numbers in range. -/
theorem diffK_apply (x : FVec Ideal S100000x2 .f32) (ei : IVec S2x6400000 32)
    (hr : ∀ i : S2x6400000.Idx, 0 ≤ (ei i).toInt ∧ (ei i).toInt < 100000) (e : Fin 6400000) (c : Fin 2) :
    diffK x ei (ix2 e c) = edgeDiff x ei e c := by
  have hd : ∀ e : Fin 6400000, 0 ≤ (dstVec ei (ix1 e)).toInt ∧ (dstVec ei (ix1 e)).toInt < 100000 := fun e => by
    rw [dstVec_apply]; exact hr _
  have hs : ∀ e : Fin 6400000, 0 ≤ (srcVec ei (ix1 e)).toInt ∧ (srcVec ei (ix1 e)).toInt < 100000 := fun e => by
    rw [srcVec_apply]; exact hr _
  unfold diffK edgeDiff
  rw [subf_apply, takeK_apply x _ hd, takeK_apply x _ hs, dstVec_apply, srcVec_apply]

/-! ## Through the region and back -/

/-- A pointwise function of two tiled arrays, laid back as edges, is the function of the arrays laid back. -/
theorem asEdges_map2 (f : EReal → EReal → EReal) (A0 A1 : FVec Ideal S10000x1280 .f32) :
    asEdges (F := Ideal) (fun i => f (A0 i) (A1 i)) = fun j => f (asEdges A0 j) (asEdges A1 j) := rfl

theorem asEdges_map (f : EReal → EReal) (A1 : FVec Ideal S10000x1280 .f32) :
    asEdges (F := Ideal) (fun i => f (A1 i)) = fun j => f (asEdges A1 j) := rfl

/-- The region's value output, laid back as edges: `edgeVal` edge by edge. -/
theorem vals_edges (d a : FVec Ideal S6400000x2 .f32) :
    asEdges (F := Ideal) (valsOf (asTiles d) (asTiles a)) = fun j => edgeVal (d j) (a j) := by
  show asEdges (F := Ideal) (fun i => edgeVal (asTiles d i) (asTiles a i)) = _
  rw [asEdges_map2, asEdges_asTiles, asEdges_asTiles]

/-- The region's count output, laid back as edges: `edgeCnt` edge by edge. -/
theorem cnts_edges (a : FVec Ideal S6400000x2 .f32) :
    asEdges (F := Ideal) (cntsOf (asTiles a)) = fun j => edgeCnt (a j) := by
  show asEdges (F := Ideal) (fun i => edgeCnt (asTiles a i)) = _
  rw [asEdges_map, asEdges_asTiles]

/-! ## The scatters, the means and the result at an index -/

/-- The printed record of the accumulating scatter is the row scatter's. -/
theorem scatter_eq : scatter_S100000x2_S6400000x1_S6400000x2_1_0_0_1
    = SegmentScatter.rowDims 100000 2 6400000 scatter_S100000x2_S6400000x1_S6400000x2_1_0_0_1_wf := rfl

/-- The host's accumulating scatter on the extended reals is the exact one, whatever its dimension numbers. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- What node `b` collects, in channel `c`, of a per-edge array. -/
theorem segRows_apply (sv : IVec S6400000 32) (u : FVec Ideal S6400000x2 .f32) (b : Fin 100000) (c : Fin 2) :
    segRows sv u (ix2 b c) = segSum (fun e => sv (ix1 e)) (fun e => u (ix2 e c)) b := by
  unfold segRows
  rw [scatterAdd_ideal, scatter_eq, SegmentScatter.rowScatterAdd_apply]
  unfold segSum
  refine congrArg₂ (· + ·) rfl (Finset.sum_congr rfl fun e _ => ?_)
  rw [col_apply]

/-- The closing select, division and maximum for ANY two collected tables: at an entry, `nodeMean` of the two. -/
theorem mean_apply (S C : FVec Ideal S100000x2 .f32) (i : S100000x2.Idx) :
    (select
      (cmpf .ogt C (broadcastInDim S100000x2 ![] bcast_S_S100000x2 (constant S_ .f32 0x00000000#32)))
      (Host.divf S (maximumf C (broadcastInDim S100000x2 ![] bcast_S_S100000x2 (constant S_ .f32 0x3F800000#32))))
      (broadcastInDim S100000x2 ![] bcast_S_S100000x2 (constant S_ .f32 0x00000000#32)) : FVec Ideal S100000x2 .f32) i
      = nodeMean (S i) (C i) := rfl

/-- The means table at `(b, c)`. -/
theorem meansK_apply (sv : IVec S6400000 32) (vals cnts : FVec Ideal S6400000x2 .f32) (b : Fin 100000) (c : Fin 2) :
    meansK sv vals cnts (ix2 b c)
      = nodeMean (segSum (fun e => sv (ix1 e)) (fun e => vals (ix2 e c)) b)
          (segSum (fun e => sv (ix1 e)) (fun e => cnts (ix2 e c)) b) := by
  unfold meansK
  rw [mean_apply, segRows_apply, segRows_apply]

/-- The sum of the two columns of an `[100000, 2]` table, at `b`. -/
theorem colsum_apply (M : FVec Ideal S100000x2 .f32) (b : Fin 100000) :
    (addf
      (shapeCast S100000 (extractStridedSlice S100000x1 ![0, 0] M slices_S100000x2_S100000x1_0_0) shapeCasts_S100000x1_S100000)
      (shapeCast S100000 (extractStridedSlice S100000x1 ![0, 1] M slices_S100000x2_S100000x1_0_1) shapeCasts_S100000x1_S100000)
        : FVec Ideal S100000 .f32) (ix1 b)
      = M (ix2 b (0 : Fin 2)) + M (ix2 b (1 : Fin 2)) := by
  rw [addf_apply,
    PairColumns.col_apply ![0, 0] (0 : Fin 2) rfl rfl M slices_S100000x2_S100000x1_0_0 shapeCasts_S100000x1_S100000 b,
    PairColumns.col_apply ![0, 1] (1 : Fin 2) rfl rfl M slices_S100000x2_S100000x1_0_1 shapeCasts_S100000x1_S100000 b]

/-! ## The kernel's result -/

/-- THE KERNEL'S RESULT, node numbers in range, is `G` of the three argument arrays. -/
theorem kernel_eq_G (x : FVec Ideal S100000x2 .f32) (a : FVec Ideal S6400000x2 .f32) (ei : IVec S2x6400000 32)
    (hr : ∀ i : S2x6400000.Idx, 0 ≤ (ei i).toInt ∧ (ei i).toInt < 100000) :
    tailK (F := Ideal) (srcVec ei) (valsOf (asTiles (diffK x ei)) (asTiles a)) (cntsOf (asTiles a)) = G x a ei := by
  funext i
  obtain ⟨b, rfl⟩ : ∃ b : Fin 100000, i = ix1 b := ⟨i 0, eq_ix1 i⟩
  unfold tailK
  rw [colsum_apply, vals_edges, cnts_edges, meansK_apply, meansK_apply]
  beta_reduce
  have hd : ∀ c : Fin 2, (fun e : Fin 6400000 => edgeVal (diffK x ei (ix2 e c)) (a (ix2 e c)))
      = fun e => edgeVal (edgeDiff x ei e c) (a (ix2 e c)) :=
    fun c => funext fun e => by rw [diffK_apply x ei hr]
  have hs : (fun e : Fin 6400000 => srcVec ei (ix1 e)) = srcOf ei := funext fun e => srcVec_apply ei e
  rw [hd, hd, hs]
  rfl

end Cert.KernelIdeal.KValue

end
-- ==== Proof.KernelHost.lean ====
/-
  The host lines around the tiled region, read off the program's lists of operations.

  Each stretch of host operations is read for ANY contents `W` of the buffers it starts from — which function of them
  it leaves in the buffers that matter (HostFns.lean has the functions), and which buffers it leaves alone — and the
  stretches are then composed. Only afterwards are they applied to the contents the program has there.
-/
import proofs.«414495_j50560355008552_3_alg».proof.Proof.Gen.KernelIdeal.Frame
import proofs.«414495_j50560355008552_3_alg».proof.Proof.HostFns
import Idealize.ShloMosaic.Lib.StableHlo.Run
import Idealize.ShloMosaic.Lib.Pipeline.Value

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]

/-! ## Typed references' casts -/

/-- Two opposite casts cancel. -/
theorem cast_cast_id {α β : Sort _} (h1 : α = β) (h2 : β = α) (v : α) : cast h2 (cast h1 v) = v := by
  subst h1; rfl

/-- Contents written to a typed reference's buffer and read back are the contents. -/
theorem ofBuf_toBuf {T : BufTy} (x : StableHlo.TRef sig T) (v : T.Contents (Elt F)) : x.ofBuf (x.toBuf v) = v :=
  cast_cast_id _ _ v

/-! ## The stretch before the region -/

/-! The stretch is four lists in a row: the two slices (4 operations), the two takes (23 each) and the subtraction
with the reshapes (5). Each list is read for ANY contents `W` it starts from — what it computes, and which buffers it
leaves alone — and the four are then composed. -/

/-- The contents after the whole stretch are the four lists' effects in order. -/
theorem pre_split (W : Valuation τ sig (Elt F)) :
    StableHlo.after (List.flatten [hostOps0, hostOps0_1, hostOps0_2, hostOps0_3]) W
      = StableHlo.after hostOps0_3 (StableHlo.after hostOps0_2 (StableHlo.after hostOps0_1 (StableHlo.after hostOps0 W))) := by
  rw [List.flatten_cons, List.flatten_cons, List.flatten_cons, List.flatten_cons, List.flatten_nil, List.append_nil,
    StableHlo.after_append, StableHlo.after_append, StableHlo.after_append]

/-! ### The two slices -/

theorem h0_v1 (W : Valuation τ sig (Elt F)) :
    StableHlo.after hostOps0 W (Proc.devRef .tc main_v1) = srcVec (W (Proc.devRef .tc main_arg2)) := by
  simp only [hostOps0]
  after_results_simp
  rfl

theorem h0_v3 (W : Valuation τ sig (Elt F)) :
    StableHlo.after hostOps0 W (Proc.devRef .tc main_v3) = dstVec (W (Proc.devRef .tc main_arg2)) := by
  simp only [hostOps0]
  after_results_simp
  rfl

theorem h0_arg0 (W : Valuation τ sig (Elt F)) :
    StableHlo.after hostOps0 W (Proc.devRef .tc main_arg0) = W (Proc.devRef .tc main_arg0) := by
  simp only [hostOps0]
  after_results_simp

theorem h0_arg1 (W : Valuation τ sig (Elt F)) :
    StableHlo.after hostOps0 W (Proc.devRef .tc main_arg1) = W (Proc.devRef .tc main_arg1) := by
  simp only [hostOps0]
  after_results_simp

/-! ### The take at the destinations

The take's 23 operations are cut in two before its one reduction (the conjunction along the unit axis). -/

/-- The first 17 operations (up to the comparisons and the constant the conjunction starts from) contain no reduction:
    what they leave in the four buffers the last 6 read. -/
theorem t1_head_bits (W : Valuation τ sig (Elt F)) :
    StableHlo.after (List.take 17 hostOps0_1) W (Proc.devRef .tc main_call0_v11) = okBits (W (Proc.devRef .tc main_v3)) := by
  simp only [hostOps0_1, List.take_succ_cons, List.take_zero]
  after_results_simp
  rfl

theorem t1_head_one (W : Valuation τ sig (Elt F)) :
    StableHlo.after (List.take 17 hostOps0_1) W (Proc.devRef .tc main_call0_c_3) = constantI S_ 1 1#1 := by
  simp only [hostOps0_1, List.take_succ_cons, List.take_zero]
  after_results_simp
  rfl

theorem t1_head_idx (W : Valuation τ sig (Elt F)) :
    StableHlo.after (List.take 17 hostOps0_1) W (Proc.devRef .tc main_call0_v5) = idxCol (W (Proc.devRef .tc main_v3)) := by
  simp only [hostOps0_1, List.take_succ_cons, List.take_zero]
  after_results_simp
  rfl

theorem t1_head_arg0 (W : Valuation τ sig (Elt F)) :
    StableHlo.after (List.take 17 hostOps0_1) W (Proc.devRef .tc main_arg0) = W (Proc.devRef .tc main_arg0) := by
  simp only [hostOps0_1, List.take_succ_cons, List.take_zero]
  after_results_simp

/-- The last 6 operations (the conjunction, the gather, the fill and the select), from ANY contents `W'`: the
    conjunction's operands stay the opaque contents of their buffers. -/
theorem t1_tail (W' : Valuation τ sig (Elt F)) :
    StableHlo.after (List.drop 17 hostOps0_1) W' (Proc.devRef .tc main_v4)
      = (select (broadcastInDim S6400000x2 ![0] bcast_S6400000_S6400000x2_0
            (Host.reduce IntOp.andi (W' (Proc.devRef .tc main_call0_v11)) (W' (Proc.devRef .tc main_call0_c_3))
              reducesTo_S6400000x1_S6400000_d1 h_S_))
          (Host.gather gather_S100000x2_S6400000x1_S6400000x2_1_0_n_n_0_1_12 (W' (Proc.devRef .tc main_arg0))
            (W' (Proc.devRef .tc main_call0_v5)))
          (broadcastInDim S6400000x2 ![] bcast_S_S6400000x2 (constant (F := F) S_ .f32 0x7FC00000#32)) : FVec F S6400000x2 .f32) := by
  simp only [hostOps0_1, List.drop_succ_cons, List.drop_zero]
  after_results_simp
  generalize W' (Proc.devRef .tc main_call0_v11) = A
  generalize W' (Proc.devRef .tc main_call0_c_3) = C
  generalize W' (Proc.devRef .tc main_arg0) = X
  generalize W' (Proc.devRef .tc main_call0_v5) = I
  simp only [ofBuf_toBuf]
  have eA : (StableHlo.TRef.of main_call0_v11 : StableHlo.TRef sig ⟨S6400000x1, .i1⟩).ofBuf A = A := rfl
  have eC : (StableHlo.TRef.of main_call0_c_3 : StableHlo.TRef sig ⟨S_, .i1⟩).ofBuf C = C := rfl
  have eX : (StableHlo.TRef.of main_arg0 : StableHlo.TRef sig ⟨S100000x2, .f32⟩).ofBuf X = X := rfl
  have eI : (StableHlo.TRef.of main_call0_v5 : StableHlo.TRef sig ⟨S6400000x1, .i32⟩).ofBuf I = I := rfl
  have e0 : ∀ v : (⟨S6400000x2, .f32⟩ : BufTy).Contents (Elt F),
      (StableHlo.TRef.of main_v4 : StableHlo.TRef sig ⟨S6400000x2, .f32⟩).toBuf v = v := fun _ => rfl
  rw [eA, eC, eX, eI, e0]

theorem h1_v4 (W : Valuation τ sig (Elt F)) :
    StableHlo.after hostOps0_1 W (Proc.devRef .tc main_v4)
      = takeK (W (Proc.devRef .tc main_arg0)) (W (Proc.devRef .tc main_v3)) := by
  rw [← List.take_append_drop 17 (hostOps0_1 (F := F)), StableHlo.after_append, t1_tail, t1_head_bits, t1_head_one, t1_head_arg0,
    t1_head_idx]
  rfl

set_option maxHeartbeats 4000000 in
theorem h1_arg0 (W : Valuation τ sig (Elt F)) :
    StableHlo.after hostOps0_1 W (Proc.devRef .tc main_arg0) = W (Proc.devRef .tc main_arg0) := by
  simp only [hostOps0_1]
  after_results_simp

set_option maxHeartbeats 4000000 in
theorem h1_arg1 (W : Valuation τ sig (Elt F)) :
    StableHlo.after hostOps0_1 W (Proc.devRef .tc main_arg1) = W (Proc.devRef .tc main_arg1) := by
  simp only [hostOps0_1]
  after_results_simp

set_option maxHeartbeats 4000000 in
theorem h1_v1 (W : Valuation τ sig (Elt F)) :
    StableHlo.after hostOps0_1 W (Proc.devRef .tc main_v1) = W (Proc.devRef .tc main_v1) := by
  simp only [hostOps0_1]
  after_results_simp

/-! ### The take at the sources -/

/-- The first 17 operations (up to the comparisons and the constant the conjunction starts from) contain no reduction:
    what they leave in the four buffers the last 6 read. -/
theorem t2_head_bits (W : Valuation τ sig (Elt F)) :
    StableHlo.after (List.take 17 hostOps0_2) W (Proc.devRef .tc main_call1_v11) = okBits (W (Proc.devRef .tc main_v1)) := by
  simp only [hostOps0_2, List.take_succ_cons, List.take_zero]
  after_results_simp
  rfl

theorem t2_head_one (W : Valuation τ sig (Elt F)) :
    StableHlo.after (List.take 17 hostOps0_2) W (Proc.devRef .tc main_call1_c_3) = constantI S_ 1 1#1 := by
  simp only [hostOps0_2, List.take_succ_cons, List.take_zero]
  after_results_simp
  rfl

theorem t2_head_idx (W : Valuation τ sig (Elt F)) :
    StableHlo.after (List.take 17 hostOps0_2) W (Proc.devRef .tc main_call1_v5) = idxCol (W (Proc.devRef .tc main_v1)) := by
  simp only [hostOps0_2, List.take_succ_cons, List.take_zero]
  after_results_simp
  rfl

theorem t2_head_arg0 (W : Valuation τ sig (Elt F)) :
    StableHlo.after (List.take 17 hostOps0_2) W (Proc.devRef .tc main_arg0) = W (Proc.devRef .tc main_arg0) := by
  simp only [hostOps0_2, List.take_succ_cons, List.take_zero]
  after_results_simp

/-- The last 6 operations (the conjunction, the gather, the fill and the select), from ANY contents `W'`: the
    conjunction's operands stay the opaque contents of their buffers. -/
theorem t2_tail (W' : Valuation τ sig (Elt F)) :
    StableHlo.after (List.drop 17 hostOps0_2) W' (Proc.devRef .tc main_v5)
      = (select (broadcastInDim S6400000x2 ![0] bcast_S6400000_S6400000x2_0
            (Host.reduce IntOp.andi (W' (Proc.devRef .tc main_call1_v11)) (W' (Proc.devRef .tc main_call1_c_3))
              reducesTo_S6400000x1_S6400000_d1 h_S_))
          (Host.gather gather_S100000x2_S6400000x1_S6400000x2_1_0_n_n_0_1_12 (W' (Proc.devRef .tc main_arg0))
            (W' (Proc.devRef .tc main_call1_v5)))
          (broadcastInDim S6400000x2 ![] bcast_S_S6400000x2 (constant (F := F) S_ .f32 0x7FC00000#32)) : FVec F S6400000x2 .f32) := by
  simp only [hostOps0_2, List.drop_succ_cons, List.drop_zero]
  after_results_simp
  generalize W' (Proc.devRef .tc main_call1_v11) = A
  generalize W' (Proc.devRef .tc main_call1_c_3) = C
  generalize W' (Proc.devRef .tc main_arg0) = X
  generalize W' (Proc.devRef .tc main_call1_v5) = I
  simp only [ofBuf_toBuf]
  have eA : (StableHlo.TRef.of main_call1_v11 : StableHlo.TRef sig ⟨S6400000x1, .i1⟩).ofBuf A = A := rfl
  have eC : (StableHlo.TRef.of main_call1_c_3 : StableHlo.TRef sig ⟨S_, .i1⟩).ofBuf C = C := rfl
  have eX : (StableHlo.TRef.of main_arg0 : StableHlo.TRef sig ⟨S100000x2, .f32⟩).ofBuf X = X := rfl
  have eI : (StableHlo.TRef.of main_call1_v5 : StableHlo.TRef sig ⟨S6400000x1, .i32⟩).ofBuf I = I := rfl
  have e0 : ∀ v : (⟨S6400000x2, .f32⟩ : BufTy).Contents (Elt F),
      (StableHlo.TRef.of main_v5 : StableHlo.TRef sig ⟨S6400000x2, .f32⟩).toBuf v = v := fun _ => rfl
  rw [eA, eC, eX, eI, e0]

theorem h2_v5 (W : Valuation τ sig (Elt F)) :
    StableHlo.after hostOps0_2 W (Proc.devRef .tc main_v5)
      = takeK (W (Proc.devRef .tc main_arg0)) (W (Proc.devRef .tc main_v1)) := by
  rw [← List.take_append_drop 17 (hostOps0_2 (F := F)), StableHlo.after_append, t2_tail, t2_head_bits, t2_head_one, t2_head_arg0,
    t2_head_idx]
  rfl

set_option maxHeartbeats 4000000 in
theorem h2_v4 (W : Valuation τ sig (Elt F)) :
    StableHlo.after hostOps0_2 W (Proc.devRef .tc main_v4) = W (Proc.devRef .tc main_v4) := by
  simp only [hostOps0_2]
  after_results_simp

set_option maxHeartbeats 4000000 in
theorem h2_arg1 (W : Valuation τ sig (Elt F)) :
    StableHlo.after hostOps0_2 W (Proc.devRef .tc main_arg1) = W (Proc.devRef .tc main_arg1) := by
  simp only [hostOps0_2]
  after_results_simp

set_option maxHeartbeats 4000000 in
theorem h2_v1 (W : Valuation τ sig (Elt F)) :
    StableHlo.after hostOps0_2 W (Proc.devRef .tc main_v1) = W (Proc.devRef .tc main_v1) := by
  simp only [hostOps0_2]
  after_results_simp

/-! ### The subtraction and the reshapes -/

theorem h3_v9 (W : Valuation τ sig (Elt F)) :
    StableHlo.after hostOps0_3 W (Proc.devRef .tc main_v9)
      = asTiles (subf (W (Proc.devRef .tc main_v4)) (W (Proc.devRef .tc main_v5))) := by
  simp only [hostOps0_3]
  after_results_simp
  rfl

theorem h3_v10 (W : Valuation τ sig (Elt F)) :
    StableHlo.after hostOps0_3 W (Proc.devRef .tc main_v10) = asTiles (W (Proc.devRef .tc main_arg1)) := by
  simp only [hostOps0_3]
  after_results_simp
  rfl

theorem h3_v1 (W : Valuation τ sig (Elt F)) :
    StableHlo.after hostOps0_3 W (Proc.devRef .tc main_v1) = W (Proc.devRef .tc main_v1) := by
  simp only [hostOps0_3]
  after_results_simp

/-! ### The four composed -/

/-- From ANY buffer contents `W`, the stretch before the region leaves the region's first input at the difference
    array laid out in tiles … -/
theorem pre9_gen (W : Valuation τ sig (Elt F)) :
    StableHlo.after (List.flatten [hostOps0, hostOps0_1, hostOps0_2, hostOps0_3]) W (Proc.devRef .tc main_v9)
      = asTiles (diffK (W (Proc.devRef .tc main_arg0)) (W (Proc.devRef .tc main_arg2))) := by
  rw [pre_split, h3_v9, h2_v5, h2_v4, h1_v4, h1_arg0, h1_v1, h0_v3, h0_arg0, h0_v1]
  rfl

/-- … its second input at the edge table laid out in tiles … -/
theorem pre10_gen (W : Valuation τ sig (Elt F)) :
    StableHlo.after (List.flatten [hostOps0, hostOps0_1, hostOps0_2, hostOps0_3]) W (Proc.devRef .tc main_v10)
      = asTiles (W (Proc.devRef .tc main_arg1)) := by
  rw [pre_split, h3_v10, h2_arg1, h1_arg1, h0_arg1]

/-- … and the vector of source numbers, which the lines after the region read again. -/
theorem pre1_gen (W : Valuation τ sig (Elt F)) :
    StableHlo.after (List.flatten [hostOps0, hostOps0_1, hostOps0_2, hostOps0_3]) W (Proc.devRef .tc main_v1)
      = srcVec (W (Proc.devRef .tc main_arg2)) := by
  rw [pre_split, h3_v1, h2_v1, h1_v1, h0_v1]

/-! ## The stretch after the region -/

set_option maxHeartbeats 4000000 in
/-- From ANY buffer contents `W`, the lines after the region leave the result at `tailK` of the source numbers and the
    region's two output arrays as `W` has them. -/
theorem tail_gen (W : Valuation τ sig (Elt F)) :
    StableHlo.after (List.flatten [hostOps1, hostOps1_1, hostOps1_2]) W (Proc.devRef .tc main_v32)
      = tailK (W (Proc.devRef .tc main_v1)) (W (Proc.devRef .tc main_v11_0)) (W (Proc.devRef .tc main_v11_1)) := by
  simp only [hostOps1, hostOps1_1, hostOps1_2, List.flatten_cons, List.flatten_nil, List.append_nil, List.cons_append,
    List.nil_append]
  after_results_simp
  rfl

end Cert.KernelIdeal.Host

end
-- ==== Proof.KernelRun.lean ====
/-
  The idealized kernel's run, read: every weakly fair execution ends with the result array at `G` of the three argument
  arrays (node numbers in range) and the arguments unchanged.

  The generated frame run leaves the region's two output arrays at what the library computes from the body's
  write-backs (KernelRegion.lean says what that is) and every other buffer at what the lines after the region make of
  the region's exit contents. Those lines read the two output arrays and the vector of source numbers; the region's
  inputs are what the lines before it computed (KernelHost.lean). Put together the result buffer holds `tailK` of those,
  which is `G` (KernelValue.lean).
-/
import proofs.«414495_j50560355008552_3_alg».proof.Proof.KernelValue
import proofs.«414495_j50560355008552_3_alg».proof.Proof.KernelHost

set_option maxRecDepth 16384

noncomputable section

namespace Cert.KernelIdeal.KRun

open Cert.KernelIdeal Cert.KernelIdeal.Gen Cert.KernelIdeal.Host Cert.KernelIdeal.Region Cert.KernelIdeal.KValue Cert.EdgeMean
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg)

/-! ## What the region finds -/

/-- The region's first input: the difference array, in tiles. -/
theorem V9_eq (c : Dev nD) : V m c (Pipeline.arrRef spec0 0)
    = asTiles (F := Ideal) (diffK (m ((c : Thread nD τ).loc main_arg0)) (m ((c : Thread nD τ).loc main_arg2))) :=
  pre9_gen (F := Ideal) (fun b => m (c, b))

/-- The region's second input: the edge table, in tiles. -/
theorem V10_eq (c : Dev nD) : V m c (Pipeline.arrRef spec0 1) = asTiles (F := Ideal) (m ((c : Thread nD τ).loc main_arg1)) :=
  pre10_gen (F := Ideal) (fun b => m (c, b))

/-- The vector of source numbers the lines after the region read. -/
theorem V1_eq (c : Dev nD) : V0 m c (Proc.devRef .tc main_v1) = srcVec (m ((c : Thread nD τ).loc main_arg2)) :=
  pre1_gen (F := Ideal) (fun b => m (c, b))

/-! ## What the lines after the region leave in the result buffer -/

theorem result_eq (c : Dev nD) :
    Pipeline.afterTail₀ cfgs (dats m) 0 (V0 m) [hostOps1, hostOps1_1, hostOps1_2] c main_v32
      = tailK (F := Ideal) (srcVec (m ((c : Thread nD τ).loc main_arg2)))
          (valsOf (asTiles (F := Ideal) (diffK (m ((c : Thread nD τ).loc main_arg0)) (m ((c : Thread nD τ).loc main_arg2))))
            (asTiles (F := Ideal) (m ((c : Thread nD τ).loc main_arg1))))
          (cntsOf (asTiles (F := Ideal) (m ((c : Thread nD τ).loc main_arg1)))) := by
  unfold Pipeline.afterTail₀
  rw [tail_gen]
  rw [Pipeline.withArrays_of_ne _ c _ _ main_v1 (by decide)]
  have h2 : Pipeline.withArrays (cfgs 0).spec c (V0 m c) (fun w => (dats m 0 c).arrAt w (cfgs 0).N) (Proc.devRef .tc main_v11_0)
      = (dats m 0 c).arrAt 2 cfg0.N := Pipeline.withArrays_arr spec0 launch0.win.arr_inj c _ _ 2
  have h3 : Pipeline.withArrays (cfgs 0).spec c (V0 m c) (fun w => (dats m 0 c).arrAt w (cfgs 0).N) (Proc.devRef .tc main_v11_1)
      = (dats m 0 c).arrAt 3 cfg0.N := Pipeline.withArrays_arr spec0 launch0.win.arr_inj c _ _ 3
  rw [h2, h3, final2, final3, V9_eq, V10_eq, V1_eq]

/-! ## The run -/

/-- Every weakly fair execution of the idealized kernel's @main ends with the result at `G` of the arguments, which
    it leaves unchanged — where every node number is in `[0, 100000)`. -/
theorem run (hr : ∀ (c : Dev nD) (i : S2x6400000.Idx),
      0 ≤ ((m ((c : Thread nD τ).loc main_arg2) : IVec S2x6400000 32) i).toInt
        ∧ ((m ((c : Thread nD τ).loc main_arg2) : IVec S2x6400000 32) i).toInt < 100000) :
    θ_run defs (onTc (τ := τ) (main (F := Ideal))) ⟨m, fun _ => 0, ρ⟩ (fun r => ∀ c : Dev nD,
      r.2.mem ((c : Thread nD τ).loc main_v32)
          = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c =>
    ⟨(((h c).2 main_v32 (Pipeline.mem_restRefs_of main_v32 (by decide) (by decide))).trans (result_eq m c)).trans
        (kernel_eq_G _ _ _ (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.lean ====
/-
  Mean divergence-like quantity on a graph: the kernel against its jnp reference, over the extended reals.

  INPUTS. A node table `x : [100000, 2]`, an edge table `a : [6400000, 2]`, and node numbers `ei : [2, 6400000]` (row 0 the
  source `s e` of edge `e`, row 1 its destination `t e`).

  THE FUNCTION (Spec.lean, `G`). In channel `c`, an edge whose entry `a e c` is not zero carries
  `(x (t e) c - x (s e) c) / a e c` and counts once; other edges carry `0` and do not count. Node `b` collects the values and
  the counts of the edges with source `b`; its mean is value over count where the count is positive, else `0`; the result
  at `b` is the sum of the two channels' means.

  THE TWO PROGRAMS. The reference does this one channel at a time on column vectors (element gathers, element scatters).
  The kernel does both channels at once: row gathers give the `[6400000, 2]` differences, a tiled pointwise region over the
  same data laid out as `[10000, 1280]` computes the per-edge values and counts, and row scatters collect them. At the
  ideal reading both are `G` term for term: the same quotient, the same guarded divisor, the same sums over the same
  edges in the same form. No law of arithmetic is used, and so no finiteness.

  THE PRECONDITION. The node numbers are in `[0, 100000)`. The kernel's take fills a row with a NaN pattern where a
  number names no row, and the reference's indexing clamps: outside the range the two differ. Inside it the take's
  range test passes everywhere and the fill is never selected (KernelValue.lean `takeK_apply`). The scatters need
  nothing: a source that names no node is dropped by both programs alike.

  MODULES. Spec (the function) · PreRange (the range, out of the precondition) · RefRun, RefRead (the reference's run and
  its stages) · RefValue (the reference is `G`) · HostFns, KernelHost (the kernel's host lines as functions, read off the
  operation lists) · KernelRegion (the tiled region's two output arrays) · KernelValue (the kernel's functions at an index;
  the kernel is `G`) · KernelRun (the kernel's run, read) · four files of general lemmas on gathers, scatters, index ranges
  and columns.
-/
import proofs.«414495_j50560355008552_3_alg».proof.Defs
import proofs.«414495_j50560355008552_3_alg».proof.Proof.Gen.Kernel
import proofs.«414495_j50560355008552_3_alg».proof.Proof.Gen.Kernel.Frame
import proofs.«414495_j50560355008552_3_alg».proof.Proof.Gen.KernelIdeal
import proofs.«414495_j50560355008552_3_alg».proof.Proof.Gen.KernelIdeal.Frame
import proofs.«414495_j50560355008552_3_alg».proof.Proof.Gen.ReferenceIdeal
import proofs.«414495_j50560355008552_3_alg».proof.Proof.Gen.Pre_finite_inputs
import proofs.«414495_j50560355008552_3_alg».proof.Proof.RefRun
import proofs.«414495_j50560355008552_3_alg».proof.Proof.RefRead
import proofs.«414495_j50560355008552_3_alg».proof.Proof.RefValue
import proofs.«414495_j50560355008552_3_alg».proof.Proof.PreRange
import proofs.«414495_j50560355008552_3_alg».proof.Proof.KernelRun
import Idealize.ShloMosaic.Adequacy
import Idealize.ShloMosaic.Init

noncomputable section

namespace Cert.Proof.Claims

open Idealize.ShloMosaic Idealize.ShloMosaic.TcCoe Idealize.SL.Sem

/-- The word-level kernel runs and keeps its arguments: the generated frame. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing: there is nothing to preserve. -/
theorem preserves : Cert.preserves_Kernel_KernelIdeal := trivial

/-- Both idealized programs end with the result at `G` of the arguments: the kernel where the node numbers are in range
    (which the precondition says), the reference always; and the arguments agree. -/
theorem algebraic : Cert.algebraic_KernelIdeal_ReferenceIdeal := by
  intro m ρ m' ρ' hpre hagree
  have hr : ∀ (c : Dev Cert.KernelIdeal.nD) (i : Cert.KernelIdeal.S2x6400000.Idx),
      0 ≤ ((m ((c : Thread Cert.KernelIdeal.nD Cert.KernelIdeal.τ).loc Cert.KernelIdeal.main_arg2)
              : IVec Cert.KernelIdeal.S2x6400000 32) i).toInt
        ∧ ((m ((c : Thread Cert.KernelIdeal.nD Cert.KernelIdeal.τ).loc Cert.KernelIdeal.main_arg2)
              : IVec Cert.KernelIdeal.S2x6400000 32) i).toInt < 100000 :=
    fun c i => Cert.EdgeMean.range_of_pre (F := Ideal) _ _ _ (hpre c) i
  refine ⟨_, Cert.KernelIdeal.KRun.run m ρ hr, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v82_eq, Cert.ReferenceIdeal.RefValue.ref_eq_G, (hagree c).1, (hagree c).2.1,
    (hagree c).2.2]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
